-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x512x8x8 : Shape := ⟨5, ![1, 512, 512, 8, 8]⟩
abbrev S2x256x256x8x8 : Shape := ⟨5, ![2, 256, 256, 8, 8]⟩
abbrev S_ : Shape := ⟨0, ![]⟩

class Facts : Prop where
  bcast_S_S1x512x512x8x8 : S_.BroadcastsInDim S1x512x512x8x8 (![] : Fin 0 → Fin S1x512x512x8x8.rank)
  reducesTo_S1x512x512x8x8_S_d0_1_2_3_4 : S1x512x512x8x8.ReducesTo [0, 1, 2, 3, 4] S_
  h_S_ : 0 < S_.numel
  bcast_S_S2x256x256x8x8 : S_.BroadcastsInDim S2x256x256x8x8 (![] : Fin 0 → Fin S2x256x256x8x8.rank)
  reducesTo_S2x256x256x8x8_S_d0_1_2_3_4 : S2x256x256x8x8.ReducesTo [0, 1, 2, 3, 4] S_

variable [Facts]

def fn {F : FTy → Type} [FloatOps F] (main_arg0 : FVec F S1x512x512x8x8 .f32) (main_arg1 : FVec F S2x256x256x8x8 .f32) : IVec S_ 1 :=
  let main_v0 : FVec F S1x512x512x8x8 .f32 := Host.absf main_arg0
  let main_cst : FVec F S_ .f32 := constant S_ .f32 0x7F800000#32
  let main_v1 : FVec F S1x512x512x8x8 .f32 := broadcastInDim S1x512x512x8x8 ![] bcast_S_S1x512x512x8x8 main_cst
  let main_v2 : IVec S1x512x512x8x8 1 := cmpf .olt main_v0 main_v1
  let main_c : IVec S_ 1 := constantI S_ 1 1#1
  let main_v3 : IVec S_ 1 := (fun x v => Host.reduce IntOp.andi x v reducesTo_S1x512x512x8x8_S_d0_1_2_3_4 h_S_) main_v2 main_c
  let main_v4 : FVec F S2x256x256x8x8 .f32 := Host.absf main_arg1
  let main_cst_0 : FVec F S_ .f32 := constant S_ .f32 0x7F800000#32
  let main_v5 : FVec F S2x256x256x8x8 .f32 := broadcastInDim S2x256x256x8x8 ![] bcast_S_S2x256x256x8x8 main_cst_0
  let main_v6 : IVec S2x256x256x8x8 1 := cmpf .olt main_v4 main_v5
  let main_c_1 : IVec S_ 1 := constantI S_ 1 1#1
  let main_v7 : IVec S_ 1 := (fun x v => Host.reduce IntOp.andi x v reducesTo_S2x256x256x8x8_S_d0_1_2_3_4 h_S_) main_v6 main_c_1
  let main_v8 : IVec S_ 1 := andi main_v3 main_v7
  main_v8
-- ==== Kernel.lean ====
abbrev S1x512x512x8x8 : Shape := ⟨5, ![1, 512, 512, 8, 8]⟩
abbrev S2x256x256x8x8 : Shape := ⟨5, ![2, 256, 256, 8, 8]⟩
abbrev S8192x2048 : Shape := ⟨2, ![8192, 2048]⟩
abbrev S512x2048 : Shape := ⟨2, ![512, 2048]⟩
abbrev S2x32768x128 : Shape := ⟨3, ![2, 32768, 128]⟩
abbrev S2x2x128 : Shape := ⟨3, ![2, 2, 128]⟩
abbrev S2x4096x128 : Shape := ⟨3, ![2, 4096, 128]⟩
abbrev S1x2x128 : Shape := ⟨3, ![1, 2, 128]⟩
abbrev S2x128 : Shape := ⟨2, ![2, 128]⟩
abbrev S_ : Shape := ⟨0, ![]⟩
abbrev S2x1 : Shape := ⟨2, ![2, 1]⟩
abbrev S2x1x128 : Shape := ⟨3, ![2, 1, 128]⟩

abbrev nBuf : Space → Nat
  | .hbm => 21
  | .vmem => 13
  | .smem => 0
  | _ => 0

abbrev bufTy : (tb : Table) → Fin (tcTables nBuf tb) → BufTy
  | .hbm, ⟨0, _⟩ => ⟨S1x512x512x8x8, .f32⟩
  | .hbm, ⟨1, _⟩ => ⟨S2x256x256x8x8, .f32⟩
  | .hbm, ⟨2, _⟩ => ⟨S8192x2048, .f32⟩
  | .hbm, ⟨3, _⟩ => ⟨S8192x2048, .f32⟩
  | .hbm, ⟨4, _⟩ => ⟨S1x512x512x8x8, .f32⟩
  | .hbm, ⟨5, _⟩ => ⟨S2x32768x128, .f32⟩
  | .hbm, ⟨6, _⟩ => ⟨S2x2x128, .f32⟩
  | .hbm, ⟨7, _⟩ => ⟨S_, .f32⟩
  | .hbm, ⟨8, _⟩ => ⟨S2x128, .f32⟩
  | .hbm, ⟨9, _⟩ => ⟨S2x1, .f32⟩
  | .hbm, ⟨10, _⟩ => ⟨S2x1, .f32⟩
  | .hbm, ⟨11, _⟩ => ⟨S2x1, .f32⟩
  | .hbm, ⟨12, _⟩ => ⟨S_, .f32⟩
  | .hbm, ⟨13, _⟩ => ⟨S2x1, .f32⟩
  | .hbm, ⟨14, _⟩ => ⟨S2x1, .f32⟩
  | .hbm, ⟨15, _⟩ => ⟨S_, .f32⟩
  | .hbm, ⟨16, _⟩ => ⟨S2x1, .f32⟩
  | .hbm, ⟨17, _⟩ => ⟨S2x1, .f32⟩
  | .hbm, ⟨18, _⟩ => ⟨S2x128, .f32⟩
  | .hbm, ⟨19, _⟩ => ⟨S2x32768x128, .f32⟩
  | .hbm, ⟨20, _⟩ => ⟨S2x256x256x8x8, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2x4096x128, .f32⟩
  | .local _ .vmem, ⟨5, _⟩ => ⟨S2x4096x128, .f32⟩
  | .local _ .vmem, ⟨6, _⟩ => ⟨S1x2x128, .f32⟩
  | .local _ .vmem, ⟨7, _⟩ => ⟨S1x2x128, .f32⟩
  | .local _ .vmem, ⟨8, _⟩ => ⟨S2x4096x128, .f32⟩
  | .local _ .vmem, ⟨9, _⟩ => ⟨S2x4096x128, .f32⟩
  | .local _ .vmem, ⟨10, _⟩ => ⟨S2x128, .f32⟩
  | .local _ .vmem, ⟨11, _⟩ => ⟨S2x4096x128, .f32⟩
  | .local _ .vmem, ⟨12, _⟩ => ⟨S2x4096x128, .f32⟩
  | _, _ => ⟨S1x512x512x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S2x4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2x4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S1x512x512x8x8_S8192x2048 : S1x512x512x8x8.ShapeCasts S8192x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S8192x2048_S1x512x512x8x8 : S8192x2048.ShapeCasts S1x512x512x8x8
  shapeCasts_S2x256x256x8x8_S2x32768x128 : S2x256x256x8x8.ShapeCasts S2x32768x128
  inb_S1x2x128_S1x2x128_0_0_0 : ∀ a, (![0, 0, 0] : Fin 3 → Nat) a + S1x2x128.size a ≤ S1x2x128.size a
  h_S1x2x128 : 0 < S1x2x128.numel
  inb_S2x4096x128_S2x4096x128_0_0_0 : ∀ a, (![0, 0, 0] : Fin 3 → Nat) a + S2x4096x128.size a ≤ S2x4096x128.size a
  h_S2x4096x128 : 0 < S2x4096x128.numel
  shapeCasts_S2x4096x128_S2x4096x128 : S2x4096x128.ShapeCasts S2x4096x128
  iota_S2x4096x128_d2_w32 : S2x4096x128.Iotas .tc 32 [2]
  reduces_S2x4096x128_S2x128 : S2x4096x128.Reduces [1] S2x128
  shapeCasts_S1x2x128_S1x2x128 : S1x2x128.ShapeCasts S1x2x128
  shapeCasts_S2x128_S1x2x128 : S2x128.ShapeCasts S1x2x128
  reducesTo_S2x2x128_S2x128_d0 : S2x2x128.ReducesTo [0] S2x128
  h_S_ : 0 < S_.numel
  slices_S2x128_S2x1_0_0 : S2x128.Slices ![0, 0] S2x1
  slices_S2x128_S2x1_0_64 : S2x128.Slices ![0, 64] S2x1
  bcast_S_S2x1 : S_.BroadcastsInDim S2x1 (![] : Fin 0 → Fin S2x1.rank)
  bcast_S2x1_S2x128_0_1 : S2x1.BroadcastsInDim S2x128 (![0, 1] : Fin 2 → Fin S2x128.rank)
  inb_S2x128_S2x128_0_0 : ∀ a, (![0, 0] : Fin 2 → Nat) a + S2x128.size a ≤ S2x128.size a
  h_S2x128 : 0 < S2x128.numel
  shapeCasts_S2x128_S2x128 : S2x128.ShapeCasts S2x128
  shapeCasts_S2x128_S2x1x128 : S2x128.ShapeCasts S2x1x128
  shapeCasts_S2x1x128_S2x1x128 : S2x1x128.ShapeCasts S2x1x128
  broadcasts_S2x1x128_S2x4096x128 : S2x1x128.Broadcasts S2x4096x128
  shapeCasts_S2x32768x128_S2x256x256x8x8 : S2x32768x128.ShapeCasts S2x256x256x8x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x4096x128.size a ≤ S2x32768x128.size a
  hwx1_0 : ∀ i : grid1.Coords, EltTy.bits .f32 = 32 ∨ (Rect.block (s := S2x32768x128) S2x4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2x128.size a ≤ S2x2x128.size a
  hwx1_1 : ∀ i : grid1.Coords, EltTy.bits .f32 = 32 ∨ (Rect.block (s := S2x2x128) S1x2x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x4096x128.size a ≤ S2x32768x128.size a
  hwx2_0 : ∀ i : grid2.Coords, EltTy.bits .f32 = 32 ∨ (Rect.block (s := S2x32768x128) S2x4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x128.size a ≤ S2x128.size a
  hwx2_1 : ∀ i : grid2.Coords, EltTy.bits .f32 = 32 ∨ (Rect.block (s := S2x128) S2x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2x4096x128.size a ≤ S2x32768x128.size a
  hwx2_2 : ∀ i : grid2.Coords, EltTy.bits .f32 = 32 ∨ (Rect.block (s := S2x32768x128) S2x4096x128.size (cc2_transform_2 i) (hinb2_2 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v3) S2x4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v3) S2x4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2x4096x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x512x512x8x8 : Shape := ⟨5, ![1, 512, 512, 8, 8]⟩
abbrev S2x256x256x8x8 : Shape := ⟨5, ![2, 256, 256, 8, 8]⟩
abbrev S_ : Shape := ⟨0, ![]⟩
abbrev S2x256x256x1x1 : Shape := ⟨5, ![2, 256, 256, 1, 1]⟩
abbrev S2x256x256 : Shape := ⟨3, ![2, 256, 256]⟩
abbrev S2 : Shape := ⟨1, ![2]⟩
abbrev S2x1x1 : Shape := ⟨3, ![2, 1, 1]⟩
abbrev S1 : Shape := ⟨1, ![1]⟩

abbrev nBuf : Space → Nat
  | .hbm => 74
  | .vmem => 0
  | .smem => 0
  | _ => 0

abbrev bufTy : (tb : Table) → Fin (tcTables nBuf tb) → BufTy
  | .hbm, ⟨0, _⟩ => ⟨S1x512x512x8x8, .f32⟩
  | .hbm, ⟨1, _⟩ => ⟨S2x256x256x8x8, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1x512x512x8x8, .f32⟩
  | .hbm, ⟨6, _⟩ => ⟨S1x512x512x8x8, .f32⟩
  | .hbm, ⟨7, _⟩ => ⟨S_, .f32⟩
  | .hbm, ⟨8, _⟩ => ⟨S1x512x512x8x8, .f32⟩
  | .hbm, ⟨9, _⟩ => ⟨S1x512x512x8x8, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x256x256x8x8, .f32⟩
  | .hbm, ⟨14, _⟩ => ⟨S2x256x256x8x8, .f32⟩
  | .hbm, ⟨15, _⟩ => ⟨S_, .f32⟩
  | .hbm, ⟨16, _⟩ => ⟨S2x256x256x8x8, .f32⟩
  | .hbm, ⟨17, _⟩ => ⟨S2x256x256x8x8, .f32⟩
  | .hbm, ⟨18, _⟩ => ⟨S_, .f32⟩
  | .hbm, ⟨19, _⟩ => ⟨S1x512x512x8x8, .f32⟩
  | .hbm, ⟨20, _⟩ => ⟨S1x512x512x8x8, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x512x512x8x8, .f32⟩
  | .hbm, ⟨25, _⟩ => ⟨S1x512x512x8x8, .f32⟩
  | .hbm, ⟨26, _⟩ => ⟨S_, .f32⟩
  | .hbm, ⟨27, _⟩ => ⟨S1x512x512x8x8, .f32⟩
  | .hbm, ⟨28, _⟩ => ⟨S1x512x512x8x8, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x256x256x8x8, .f32⟩
  | .hbm, ⟨33, _⟩ => ⟨S2x256x256x8x8, .f32⟩
  | .hbm, ⟨34, _⟩ => ⟨S_, .f32⟩
  | .hbm, ⟨35, _⟩ => ⟨S2x256x256x8x8, .f32⟩
  | .hbm, ⟨36, _⟩ => ⟨S2x256x256x8x8, .f32⟩
  | .hbm, ⟨37, _⟩ => ⟨S2x256x256x1x1, .f32⟩
  | .hbm, ⟨38, _⟩ => ⟨S2x256x256, .f32⟩
  | .hbm, ⟨39, _⟩ => ⟨S_, .f32⟩
  | .hbm, ⟨40, _⟩ => ⟨S2, .f32⟩
  | .hbm, ⟨41, _⟩ => ⟨S2x1x1, .f32⟩
  | .hbm, ⟨42, _⟩ => ⟨S_, .f32⟩
  | .hbm, ⟨43, _⟩ => ⟨S2x1x1, .f32⟩
  | .hbm, ⟨44, _⟩ => ⟨S2x1x1, .f32⟩
  | .hbm, ⟨45, _⟩ => ⟨S_, .f32⟩
  | .hbm, ⟨46, _⟩ => ⟨S2x256x256x8x8, .f32⟩
  | .hbm, ⟨47, _⟩ => ⟨S2x256x256x8x8, .f32⟩
  | .hbm, ⟨48, _⟩ => ⟨S_, .f32⟩
  | .hbm, ⟨49, _⟩ => ⟨S2x1x1, .f32⟩
  | .hbm, ⟨50, _⟩ => ⟨S2x1x1, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S2x256x256, .f32⟩
  | .hbm, ⟨57, _⟩ => ⟨S2x256x256x8x8, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S2x256x256x8x8, .f32⟩
  | .hbm, ⟨62, _⟩ => ⟨S2x256x256x8x8, .f32⟩
  | .hbm, ⟨63, _⟩ => ⟨S_, .f32⟩
  | .hbm, ⟨64, _⟩ => ⟨S2x256x256x8x8, .f32⟩
  | .hbm, ⟨65, _⟩ => ⟨S2x256x256x8x8, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1x512x512x8x8, .f32⟩
  | .hbm, ⟨70, _⟩ => ⟨S1x512x512x8x8, .f32⟩
  | .hbm, ⟨71, _⟩ => ⟨S_, .f32⟩
  | .hbm, ⟨72, _⟩ => ⟨S1x512x512x8x8, .f32⟩
  | .hbm, ⟨73, _⟩ => ⟨S1x512x512x8x8, .f32⟩
  | _, _ => ⟨S1x512x512x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst_1 : Ref sig .tc := ⟨.hbm, 10, rfl⟩
abbrev main_cst_2 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v1 : Ref sig .tc := ⟨.hbm, 17, rfl⟩
abbrev main_cst_3 : Ref sig .tc := ⟨.hbm, 18, rfl⟩
abbrev main_v2 : Ref sig .tc := ⟨.hbm, 19, rfl⟩
abbrev main_v3 : Ref sig .tc := ⟨.hbm, 20, rfl⟩
abbrev main_cst_4 : Ref sig .tc := ⟨.hbm, 21, rfl⟩
abbrev main_cst_5 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v4 : Ref sig .tc := ⟨.hbm, 28, rfl⟩
abbrev main_cst_6 : Ref sig .tc := ⟨.hbm, 29, rfl⟩
abbrev main_cst_7 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_8 : Ref sig .tc := ⟨.hbm, 39, rfl⟩
abbrev main_v8 : Ref sig .tc := ⟨.hbm, 40, rfl⟩
abbrev main_v9 : Ref sig .tc := ⟨.hbm, 41, rfl⟩
abbrev main_cst_9 : Ref sig .tc := ⟨.hbm, 42, rfl⟩
abbrev main_v10 : Ref sig .tc := ⟨.hbm, 43, rfl⟩
abbrev main_v11 : Ref sig .tc := ⟨.hbm, 44, rfl⟩
abbrev main_cst_10 : Ref sig .tc := ⟨.hbm, 45, rfl⟩
abbrev main_v12 : Ref sig .tc := ⟨.hbm, 46, rfl⟩
abbrev main_v13 : Ref sig .tc := ⟨.hbm, 47, rfl⟩
abbrev main_cst_11 : Ref sig .tc := ⟨.hbm, 48, rfl⟩
abbrev main_v14 : Ref sig .tc := ⟨.hbm, 49, rfl⟩
abbrev main_v15 : Ref sig .tc := ⟨.hbm, 50, rfl⟩
abbrev main_c : Ref sig .tc := ⟨.hbm, 51, rfl⟩
abbrev main_v16 : Ref sig .tc := ⟨.hbm, 52, rfl⟩
abbrev main_c_12 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst_13 : Ref sig .tc := ⟨.hbm, 58, rfl⟩
abbrev main_cst_14 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_v21 : Ref sig .tc := ⟨.hbm, 65, rfl⟩
abbrev main_cst_15 : Ref sig .tc := ⟨.hbm, 66, rfl⟩
abbrev main_cst_16 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_v22 : Ref sig .tc := ⟨.hbm, 73, rfl⟩

abbrev nD : Nat := 1
abbrev τ : Topo := Topo.v7x

variable {F : FTy → Type} [FloatOps F]

class Facts₀ : Prop where
  bcast_S_S1x512x512x8x8 : S_.BroadcastsInDim S1x512x512x8x8 (![] : Fin 0 → Fin S1x512x512x8x8.rank)
  bcast_S_S2x256x256x8x8 : S_.BroadcastsInDim S2x256x256x8x8 (![] : Fin 0 → Fin S2x256x256x8x8.rank)
  slices_S2x256x256x8x8_S2x256x256x1x1_0_0_0_0_0 : S2x256x256x8x8.Slices ![0, 0, 0, 0, 0] S2x256x256x1x1
  shapeCasts_S2x256x256x1x1_S2x256x256 : S2x256x256x1x1.ShapeCasts S2x256x256
  reducesTo_S2x256x256_S2_d1_2 : S2x256x256.ReducesTo [1, 2] S2
  h_S_ : 0 < S_.numel
  bcast_S2_S2x1x1_0 : S2.BroadcastsInDim S2x1x1 (![0] : Fin 1 → Fin S2x1x1.rank)
  bcast_S_S2x1x1 : S_.BroadcastsInDim S2x1x1 (![] : Fin 0 → Fin S2x1x1.rank)
  bcast_S_S1 : S_.BroadcastsInDim S1 (![] : Fin 0 → Fin S1.rank)
  concatenates_S1_S1_S2_d0 : Shape.Concatenates [S1, S1] S2 0
  bcast_S2x1x1_S2x256x256_0_1_2 : S2x1x1.BroadcastsInDim S2x256x256 (![0, 1, 2] : Fin 3 → Fin S2x256x256.rank)
  scatter_S2x256x256x8x8_S2_S2x256x256_012_34_34_0_wf : ScatterDims.WF S2x256x256x8x8 S2 S2x256x256 [0, 1, 2] [3, 4] [3, 4] 0

variable [Facts₀]

def scatter_S2x256x256x8x8_S2_S2x256x256_012_34_34_0 : ScatterDims S2x256x256x8x8 S2 S2x256x256 where
  updateWindowDims := [0, 1, 2]
  insertedWindowDims := [3, 4]
  scatterDimsToOperandDims := [3, 4]
  indexVectorDim := 0
  wf := scatter_S2x256x256x8x8_S2_S2x256x256_012_34_34_0_wf

class Facts : Prop extends Facts₀ where

variable [Facts]
-- ==== Proof.Spec.lean ====
/-
  The two augmentations as functions on the extended reals.

  Every coefficient is clamped to [lo, hi] before and after each step. Luma: the clamped coefficient times the gain,
  clamped. Chroma: the clamped coefficient times the same gain; the DC coefficient of every 8×8 block (entry (0, 0))
  also receives `blend` times the mean, over the channel's 256 × 256 blocks, of the clamped DC coefficients; the sum is
  clamped again. The kernel works on a lane-dense layout of the chroma planes, [2, 32768, 128]: a row holds two adjacent
  8×8 blocks, so the DC coefficients sit on lanes 0 and 64, and it sums them in two halves of 16384 rows each, four
  blocks of 4096 rows to a half.
-/
import Idealize.ShloMosaic.PureOps.Ideal.Laws
import Idealize.ShloMosaic.Lib.ValueIdx

noncomputable section

open scoped BigOperators

namespace Cert.DctColor

open Idealize.ShloMosaic Idealize.ShloMosaic.ValueIdx

/-- The luma planes and the chroma planes, as blocks of 8×8 coefficients; the lane-dense layouts of both; the two halves'
    partial sums per channel and lane; a value per channel and lane. -/
abbrev Luma : Shape := ⟨5, ![1, 512, 512, 8, 8]⟩
abbrev Chroma : Shape := ⟨5, ![2, 256, 256, 8, 8]⟩
abbrev LumaRows : Shape := ⟨2, ![8192, 2048]⟩
abbrev ChromaRows : Shape := ⟨3, ![2, 32768, 128]⟩
abbrev Halves : Shape := ⟨3, ![2, 2, 128]⟩
abbrev Lanes : Shape := ⟨2, ![2, 128]⟩

/-- The clamp's bounds -1024 and 1016, the gain 1.9 (as the f32 nearest to it), the blend factor 1 - 1.9 (as the f32
    nearest to it) and the number of blocks per channel, 65536: each the extended real its f32 word denotes. -/
def lo : EReal := Ideal.ofBits .f32 0xC4800000#32
def hi : EReal := Ideal.ofBits .f32 0x447E0000#32
def gain : EReal := Ideal.ofBits .f32 0x3FF33333#32
def blend : EReal := Ideal.ofBits .f32 0xBF666666#32
def blocks : EReal := Ideal.ofBits .f32 0x47800000#32

/-- Clamping to [lo, hi]: the lower bound first, then the upper. -/
def clamp (x : EReal) : EReal := min hi (max lo x)

/-- Clamping twice is clamping once (in any linear order, whatever the two bounds are). -/
theorem clamp_clamp (x : EReal) : clamp (clamp x) = clamp x := by
  unfold clamp
  rcases le_total lo hi with h | h
  · have h1 : lo ≤ min hi (max lo x) := le_min h (le_max_left _ _)
    rw [max_eq_right h1, min_eq_right (min_le_left _ _)]
  · have h1 : min hi (max lo x) = hi := min_eq_left (h.trans (le_max_left _ _))
    rw [h1, max_eq_left h, min_eq_left h]

/-- Brightness, on any layout: clamp, scale, clamp. -/
def bright {s : Shape} (y : s.Idx → EReal) : s.Idx → EReal := fun i => clamp (clamp (y i) * gain)

/-- Contrast on the lane-dense rows, given the value `corr` added on the DC lanes (0 and 64) of channel `i 0`. -/
def contrastRows (x : ChromaRows.Idx → EReal) (corr : Lanes.Idx → EReal) : ChromaRows.Idx → EReal := fun i =>
  clamp (clamp (x i) * gain + (if (i 2).val = 0 ∨ (i 2).val = 64 then corr (ix2 (i 0) (i 2)) else 0))

/-- Row `r` of block `k` of half `p` of the lane-dense rows. -/
def rowOf (p : Fin 2) (k : Fin 4) (r : Fin 4096) : Fin 32768 := ⟨(p.val * 4 + k.val) * 4096 + r.val, by omega⟩

/-- One half's partial sums: at (half, channel, lane), the sum over the half's four blocks of 4096 rows of the clamped
    coefficient on a DC lane, of zero on any other lane. -/
def dcHalves (x : ChromaRows.Idx → EReal) : Halves.Idx → EReal := fun j =>
  ∑ k : Fin 4, ∑ r : Fin 4096, (if (j 2).val = 0 ∨ (j 2).val = 64 then clamp (x (ix3 (j 1) (rowOf (j 0) k r) (j 2))) else 0)

/-- What is added to a DC coefficient of channel `c`, from the halves' partial sums `P`: both halves summed from zero on
    each lane, lanes 0 and 64 added, divided by the number of blocks, times the blend factor. -/
def shiftOf (P : Halves.Idx → EReal) (c : Fin 2) : EReal :=
  blend * Ideal.div ((0 + ∑ p : Fin 2, P (ix3 p c ⟨0, by omega⟩)) + (0 + ∑ p : Fin 2, P (ix3 p c ⟨64, by omega⟩))) blocks

/-- Contrast on the blocks of 8×8 coefficients: the mean is over the channel's 256 × 256 blocks, summed from zero. -/
def contrast (x : Chroma.Idx → EReal) : Chroma.Idx → EReal := fun j =>
  clamp (clamp (x j) * gain
    + (if (j 3).val = 0 ∧ (j 4).val = 0 then
        blend * Ideal.div (0 + ∑ h : Fin 256, ∑ w : Fin 256, clamp (x (ix5 (j 0) h w 0 0))) blocks
      else 0))

end Cert.DctColor

end
-- ==== Proof.HostGlue.lean ====
/-
  Between the regions. @main reshapes the luma planes to [8192, 2048] and back around the first region, and the chroma
  planes to the lane-dense rows [2, 32768, 128] before the second; between the second and the third it turns the halves'
  partial sums into the value added on the DC lanes (both halves summed, lanes 0 and 64 added, divided by the number of
  blocks, times the blend factor, one value per channel repeated along the lanes); after the third it reshapes the rows
  back to blocks. Read here: what each region finds in the arrays it reads, and each result array of @main in terms of
  the array its region leaves.
-/
import proofs.«418010_j49237505082026_3_alg».proof.Proof.Gen.KernelIdeal.Frame
import proofs.«418010_j49237505082026_3_alg».proof.Proof.Spec
import Idealize.ShloMosaic.Lib.Pipeline.Value
import Idealize.ShloMosaic.Lib.StableHlo.Run
import Idealize.ShloMosaic.PureOps.Ideal.Laws

set_option maxRecDepth 16384

noncomputable section

open scoped BigOperators

namespace Cert.DctColor.Kernel

open Cert.KernelIdeal Cert.KernelIdeal.Gen Cert.DctColor
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- A host stretch's operations write none of these references. -/
macro "no_write" : tactic =>
  `(tactic| (refine List.forall_iff_forall_mem.mp ?_
             simp only [hostOps0, hostOps1, hostOps2, hostOps3, List.Forall, StableHlo.nullary_writes, StableHlo.unary_writes,
               StableHlo.binary_writes, StableHlo.reshape_writes, Finset.mem_singleton]
             repeat' apply And.intro
             all_goals exact StableHlo.devRef_ne_of_ne (by decide)))

/-- The first region reads the luma planes reshaped to [8192, 2048]. -/
theorem entry_luma (c : Dev nD) :
    V1 m ρ c main_v0 = shapeCast S8192x2048 (m ((c : Thread nD τ).loc main_arg0)) shapeCasts_S1x512x512x8x8_S8192x2048 := by
  show StableHlo.after hostOps0 (W0 m ρ c) (Proc.devRef .tc main_v0) = _
  after_results
  rfl

/-- The luma result is the first region's output array reshaped to blocks. -/
theorem result_luma (c : Dev nD) :
    W7 m ρ c (Proc.devRef .tc main_v2)
      = shapeCast S1x512x512x8x8 ((dat0 (V1 m ρ) c).arrAt 1 cfg0.N) shapeCasts_S8192x2048_S1x512x512x8x8 :=
  calc W7 m ρ c (Proc.devRef .tc main_v2)
    _ = W6 m ρ c (Proc.devRef .tc main_v2) := StableHlo.after_of_forall_not_mem (b := Proc.devRef .tc main_v2) _ _ (by no_write)
    _ = W5 m ρ c (Proc.devRef .tc main_v2) := W6_of_ne m ρ c main_v2 (by decide)
    _ = W4 m ρ c (Proc.devRef .tc main_v2) := StableHlo.after_of_forall_not_mem (b := Proc.devRef .tc main_v2) _ _ (by no_write)
    _ = W3 m ρ c (Proc.devRef .tc main_v2) := W4_of_ne m ρ c main_v2 (by decide)
    _ = shapeCast S1x512x512x8x8 (W2 m ρ c (Proc.devRef .tc main_v1)) shapeCasts_S8192x2048_S1x512x512x8x8 := by
          show StableHlo.after hostOps1 (W2 m ρ c) (Proc.devRef .tc main_v2) = _
          after_results
          rfl
    _ = _ := by rw [show W2 m ρ c (Proc.devRef .tc main_v1) = (dat0 (V1 m ρ) c).arrAt 1 cfg0.N from W2_arr m ρ c 1]

/-- The chroma argument is untouched when the second host stretch runs. -/
theorem arg_chroma_kept (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (by no_write)
    _ = m ((c : Thread nD τ).loc main_arg1) := rfl

/-- The second region reads the chroma planes reshaped to the lane-dense rows. -/
theorem entry_rows (c : Dev nD) :
    V3 m ρ c main_v3 = shapeCast S2x32768x128 (m ((c : Thread nD τ).loc main_arg1)) shapeCasts_S2x256x256x8x8_S2x32768x128 :=
  calc V3 m ρ c main_v3
    _ = shapeCast S2x32768x128 (W2 m ρ c (Proc.devRef .tc main_arg1)) shapeCasts_S2x256x256x8x8_S2x32768x128 := by
          show StableHlo.after hostOps1 (W2 m ρ c) (Proc.devRef .tc main_v3) = _
          after_results
          rfl
    _ = _ := by rw [arg_chroma_kept]

/-- The third region reads the same rows: the second region only reads them, and the stretch between writes other buffers. -/
theorem entry_rows_again (c : Dev nD) :
    V5 m ρ c main_v3 = shapeCast S2x32768x128 (m ((c : Thread nD τ).loc main_arg1)) shapeCasts_S2x256x256x8x8_S2x32768x128 :=
  calc V5 m ρ c main_v3
    _ = W4 m ρ c (Proc.devRef .tc main_v3) := StableHlo.after_of_forall_not_mem (b := Proc.devRef .tc main_v3) _ _ (by no_write)
    _ = (dat1 (V3 m ρ) c).arrAt 0 cfg1.N := W4_arr m ρ c 0
    _ = (dat1 (V3 m ρ) c).A 0 := (dat1 (V3 m ρ) c).arrAt_in 0 rfl cfg1.N
    _ = V3 m ρ c main_v3 := A_eq1 (V3 m ρ) c 0
    _ = _ := entry_rows m ρ c

/-- The chroma result is the third region's output array reshaped to blocks. -/
theorem result_chroma (c : Dev nD) :
    W7 m ρ c (Proc.devRef .tc main_v15)
      = shapeCast S2x256x256x8x8 ((dat2 (V5 m ρ) c).arrAt 2 cfg2.N) shapeCasts_S2x32768x128_S2x256x256x8x8 :=
  calc W7 m ρ c (Proc.devRef .tc main_v15)
    _ = shapeCast S2x256x256x8x8 (W6 m ρ c (Proc.devRef .tc main_v14)) shapeCasts_S2x32768x128_S2x256x256x8x8 := by
          show StableHlo.after hostOps3 (W6 m ρ c) (Proc.devRef .tc main_v15) = _
          after_results
          rfl
    _ = _ := by rw [show W6 m ρ c (Proc.devRef .tc main_v14) = (dat2 (V5 m ρ) c).arrAt 2 cfg2.N from W6_arr m ρ c 2]

/-- The sum over the two halves: the witness that names the reduced axis's coordinate. -/
theorem halves_reduce : S2x2x128.Reduces [0] S2x128 := by decide

/-- The host operations between the second and the third region, as one function of the halves' partial sums `P`,
    read at channel `q` and any lane: both halves summed from zero on lanes 0 and 64, the two added, divided by the
    number of blocks, times the blend factor. -/
theorem corr_apply (P : FVec Ideal S2x2x128 .f32) (q : Fin 2) (l : Fin 128) :
    broadcastInDim S2x128 ![0, 1] bcast_S2x1_S2x128_0_1
      (mulf (broadcastInDim S2x1 ![] bcast_S_S2x1 (constant (F := Ideal) S_ .f32 0xBF666666#32))
        (Host.divf
          (addf
            (extractStridedSlice S2x1 ![0, 0]
              (Host.reduceAdd P (constant (F := Ideal) S_ .f32 0x00000000#32) reducesTo_S2x2x128_S2x128_d0 h_S_) slices_S2x128_S2x1_0_0)
            (extractStridedSlice S2x1 ![0, 64]
              (Host.reduceAdd P (constant (F := Ideal) S_ .f32 0x00000000#32) reducesTo_S2x2x128_S2x128_d0 h_S_) slices_S2x128_S2x1_0_64))
          (broadcastInDim S2x1 ![] bcast_S_S2x1 (constant (F := Ideal) S_ .f32 0x47800000#32))))
      (ix2 q l)
    = shiftOf P q := by
  have hsum : ∀ l' : Fin 128, Host.reduceAdd P (constant (F := Ideal) S_ .f32 0x00000000#32) reducesTo_S2x2x128_S2x128_d0 h_S_ (ix2 q l')
      = 0 + ∑ p : Fin 2, P (ix3 p q l') := fun l' => by
    refine (Ideal.hostReduceAdd_single reducesTo_S2x2x128_S2x128_d0 halves_reduce P _ (ix2 q l')).trans ?_
    refine congrArg₂ (· + ·) ?_ (Finset.sum_congr rfl fun p _ => congrArg P ?_)
    · exact Ideal.ofBits_zero_f32
    · funext a; match a with | ⟨0, _⟩ => rfl | ⟨1, _⟩ => rfl | ⟨2, _⟩ => rfl
  refine (broadcastInDim_apply _ bcast_S2x1_S2x128_0_1 _ (ix2 q l) (ix2 q (0 : Fin 1))
    (fun a => match a with | ⟨0, _⟩ => rfl | ⟨1, _⟩ => rfl)).trans ?_
  unfold shiftOf
  refine congrArg₂ (· * ·) ?_ (congrArg₂ Ideal.div (congrArg₂ (· + ·) ?_ ?_) ?_)
  · exact (broadcastInDim_apply _ bcast_S_S2x1 _ (ix2 q (0 : Fin 1)) ix0 (fun a => a.elim0)).trans rfl
  · exact (extractStridedSlice_apply _ _ slices_S2x128_S2x1_0_0 (ix2 q (0 : Fin 1)) (ix2 q (⟨0, by omega⟩ : Fin 128))
      (fun a => match a with | ⟨0, _⟩ => by show q.val = 0 + q.val; omega | ⟨1, _⟩ => rfl)).trans (hsum _)
  · exact (extractStridedSlice_apply _ _ slices_S2x128_S2x1_0_64 (ix2 q (0 : Fin 1)) (ix2 q (⟨64, by omega⟩ : Fin 128))
      (fun a => match a with | ⟨0, _⟩ => by show q.val = 0 + q.val; omega | ⟨1, _⟩ => rfl)).trans (hsum _)
  · exact (broadcastInDim_apply _ bcast_S_S2x1 _ (ix2 q (0 : Fin 1)) ix0 (fun a => a.elim0)).trans rfl

/-- The third region finds, in its second operand, that function of the second region's output array. -/
theorem entry_corr (c : Dev nD) (q : Fin 2) (l : Fin 128) :
    V5 m ρ c main_v13 (ix2 q l) = shiftOf ((dat1 (V3 m ρ) c).arrAt 1 cfg1.N) q := by
  have e : W4 m ρ c (Proc.devRef .tc main_v4) = (dat1 (V3 m ρ) c).arrAt 1 cfg1.N := W4_arr m ρ c 1
  rw [← e]
  show StableHlo.after hostOps2 (W4 m ρ c) (Proc.devRef .tc main_v13) (ix2 q l) = _
  after_results
  exact corr_apply (W4 m ρ c (Proc.devRef .tc main_v4)) q l

end Cert.DctColor.Kernel

end
-- ==== Proof.Brightness.lean ====
/-
  The first region: brightness on the luma planes laid out as [8192, 2048], sixteen blocks of 512 rows.
-/
import proofs.«418010_j49237505082026_3_alg».proof.Proof.Gen.KernelIdeal.Frame
import proofs.«418010_j49237505082026_3_alg».proof.Proof.Spec
import Idealize.ShloMosaic.Lib.Pipeline.Value
import Idealize.ShloMosaic.Lib.ValueIdx

set_option maxRecDepth 16384

noncomputable section

open scoped BigOperators

namespace Cert.DctColor.Kernel

open Cert.KernelIdeal Cert.KernelIdeal.Gen Cert.DctColor
open Idealize.ShloMosaic Idealize.ShloMosaic.TcCoe Idealize.ShloMosaic.ValueIdx Idealize.SL.Sem
open Idealize.ShloMosaic.Pipeline (Dat Cfg Window)

-- the TensorCore's buffer contents when the region is entered, at the ideal values
variable (V : (c : Dev nD) → (b : Ref sig .tc) → Buf (Elt Ideal) ((c : Thread nD τ).loc b))

/-- The origin of a block: offset zero on both axes. -/
theorem bright_origin : (![0, 0] : Fin 2 → Nat) = fun _ => 0 :=
  funext fun a => by match a with | ⟨0, _⟩ => rfl | ⟨1, _⟩ => rfl

/-- The body's payload, entry by entry: the loaded value clamped, times the gain, clamped again. -/
theorem bright_payload (x0 : Vec Ideal S512x2048 .f32) : k0_pay1 x0 = bright (s := S512x2048) x0 := by
  funext i
  unfold k0_pay1
  simp only [shapeCast_self]
  rfl

/-- Over the sixteen points: the input's block and the output's block are the same block, block `t` of rows and the
    only block of columns. -/
theorem bright_index : ∀ t : Fin cfg0.N, win0_0.index t (0 : Fin 2) = win0_1.index t (0 : Fin 2) + 0
    ∧ win0_0.index t (1 : Fin 2) = win0_1.index t (1 : Fin 2) + 0
    ∧ win0_1.index t (0 : Fin 2) = t.val
    ∧ win0_1.index t (1 : Fin 2) = 0 :=
  (by decide +kernel : ∀ t : Fin grid0.N, _)

/-- What point `t` writes back is block `t` of the brightness of the whole input array. -/
theorem bright_flushed (c : Dev nD) (t : Fin cfg0.N) :
    (dat0 V c).flushed 1 t
      = ((cfg0.win 1).blk t).view.read (Elt Ideal) (bright (s := S8192x2048) (V c main_v0)) := by
  show (cfg0.win 1).cut (grid0.coords t) ((dat0 V c).after 1 t) = _
  rw [after0_1]
  unfold out0_1
  rw [View.canon_unit_zero bright_origin]
  simp only [View.ld_unit_zero (S := S512x2048) bright_origin]
  rw [bright_payload]
  obtain ⟨e0, e1, e2, e3⟩ := bright_index t
  funext j
  show clamp (clamp (V c main_v0 (((cfg0.win 0).blk t).view.emb j)) * gain)
    = clamp (clamp (V c main_v0 (((cfg0.win 1).blk t).view.emb j)) * gain)
  have h0 : ((cfg0.win 0).blk t).view.emb j = ((cfg0.win 1).blk t).view.emb j := by
    funext a; apply Fin.ext
    match a with
    | ⟨0, _⟩ =>
      show win0_0.index t (0 : Fin 2) * 512 + 1 * (j 0).val = win0_1.index t (0 : Fin 2) * 512 + 1 * (j 0).val
      omega
    | ⟨1, _⟩ =>
      show win0_0.index t (1 : Fin 2) * 2048 + 1 * (j 1).val = win0_1.index t (1 : Fin 2) * 2048 + 1 * (j 1).val
      omega
  rw [h0]

/-- An index of the array is in point `t`'s block iff each coordinate is in the block's range on its axis. -/
theorem bright_mem_blk (t : Fin cfg0.N) (i : S8192x2048.Idx) :
    i ∈ ((cfg0.win 1).blk t).view.set ↔ ∀ a : Fin 2, win0_1.index t a * S512x2048.size a ≤ (i a).val
      ∧ (i a).val < win0_1.index t a * S512x2048.size a + S512x2048.size a := by
  show i ∈ ((View.whole main_v1).slice (win0_1.rect t)).set ↔ _
  rw [View.set_slice_whole, Rect.mem_set_unit]
  exact Iff.rfl

/-- Every index of the array is in some point's block: row `r` is in block `r / 512`. -/
theorem bright_cover (i : S8192x2048.Idx) :
    ∃ t : Fin cfg0.N, (cfg0.win 1).flush t = true ∧ i ∈ ((cfg0.win 1).blk t).view.set := by
  have hi0 : (i 0).val < 8192 := (i 0).isLt
  have hi1 : (i 1).val < 2048 := (i 1).isLt
  have ht : (i 0).val / 512 < 16 := by omega
  let t : Fin cfg0.N := ⟨(i 0).val / 512, ht⟩
  obtain ⟨e0, e1, e2, e3⟩ := bright_index t
  have e2' : win0_1.index t (0 : Fin 2) = (i 0).val / 512 := e2
  refine ⟨t, flush0_1 t, ?_⟩
  rw [bright_mem_blk]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 2048 ≤ (i 1).val ∧ (i 1).val < win0_1.index t (1 : Fin 2) * 2048 + 2048
    omega

/-- After the region the output array holds, at every index, the clamped input times the gain, clamped. -/
theorem brightness_array (c : Dev nD) :
    (dat0 V c).arrAt 1 cfg0.N = bright (s := S8192x2048) (V c main_v0) :=
  (dat0 V c).arrAt_eq_of_cover 1 _ (fun t _ => bright_flushed V c t) bright_cover

end Cert.DctColor.Kernel

end
-- ==== Proof.DcSum.lean ====
/-
  The second region: the halves' partial sums of the clamped DC coefficients, accumulated over four blocks of 4096 rows.
-/
import proofs.«418010_j49237505082026_3_alg».proof.Proof.Gen.KernelIdeal.Frame
import proofs.«418010_j49237505082026_3_alg».proof.Proof.Spec
import Idealize.ShloMosaic.Lib.Pipeline.Value
import Idealize.ShloMosaic.Lib.ValueIdx
import Idealize.ShloMosaic.Lib.Tactic

set_option maxRecDepth 16384

noncomputable section

open scoped BigOperators

namespace Cert.DctColor.Kernel

open Cert.KernelIdeal Cert.KernelIdeal.Gen Cert.DctColor
open Idealize.ShloMosaic Idealize.ShloMosaic.TcCoe Idealize.ShloMosaic.ValueIdx Idealize.SL.Sem
open Idealize.ShloMosaic.Pipeline (Dat Cfg Window)

namespace DcSum

section Pieces
variable {F : FTy → Type} [FloatOps F]

/-- The zero offsets of a rank-3 block, however spelt. -/
theorem hz3 : (![0, 0, 0] : Fin 3 → Nat) = fun _ => 0 := funext fun a => by fin_cases a <;> rfl

/-- At a point that does not open a half the body leaves, in the output's staging buffer holding `xo`, the one payload
    of its covering store: `xo` plus the lane-masked row sums of the clamped input block `x`. -/
theorem out_B (c : Dev nD) (i : grid1.Coords) (a2 : Memref sig .tc .vmem S2x4096x128 .f32) (h2 : a2.IsWhole)
    (a3 : Memref sig .tc .vmem S1x2x128 .f32) (h3 : a3.IsWhole) (hc : ¬cond1_0 i)
    (x : Vec F S2x4096x128 .f32) (xo : Vec F S1x2x128 .f32) :
    out1_B_1 c i a2 h2 a3 h3 hc x xo = k1_pay2 x xo := by
  unfold out1_B_1
  rw [View.read_writes_eq_canon _ _ _ (cover1_B_1 c i a2 h2 a3 h3 hc x xo)]
  unfold kernelRun1_B
  dsimp only
  sl_unfold_words
  rw [View.canon_unit_zero (S := S1x2x128) hz3]
  simp only [View.readAt_eq_ld, h2.read_unread, h3.read_unread, View.ld_unit_zero (S := S2x4096x128) hz3,
    View.ld_unit_zero (S := S1x2x128) hz3]

/-- At a point that opens a half the body first stores the zero block, reads it back, and leaves the same payload over
    it: the later store covers the earlier one. -/
theorem out_A (c : Dev nD) (i : grid1.Coords) (a2 : Memref sig .tc .vmem S2x4096x128 .f32) (h2 : a2.IsWhole)
    (a3 : Memref sig .tc .vmem S1x2x128 .f32) (h3 : a3.IsWhole) (hc : cond1_0 i)
    (x : Vec F S2x4096x128 .f32) :
    out1_A_1 c i a2 h2 a3 h3 hc x = k1_pay2 x (k1_pay1 (F := F)) := by
  unfold out1_A_1
  rw [View.read_writes_eq_canon _ _ _ (cover1_A_1 c i a2 h2 a3 h3 hc x)]
  unfold kernelRun1_A
  dsimp only
  sl_unfold_words
  rw [View.canon_cons_unit_zero (S := S1x2x128) hz3, View.readCov_unit_zero (S := S1x2x128) _ hz3]
  simp only [View.readAt_eq_ld, h2.read_unread, View.ld_unit_zero (S := S2x4096x128) hz3]

end Pieces

section Payload

/-- A lane's mask bit: the two comparisons of the lane number, with 0 and with 64, or-ed; set on those two lanes only. -/
theorem lane_bit : ∀ l : Fin 128,
    IntOp.ori (IntOp.cmpi .eq (BitVec.ofNat 32 l.val) 0#32) (IntOp.cmpi .eq (BitVec.ofNat 32 l.val) 64#32)
      = if l.val = 0 ∨ l.val = 64 then 1#1 else 0#1 := by decide +kernel

/-- The zero block, at the ideal values: zero everywhere. -/
theorem pay1_apply (i : S1x2x128.Idx) : k1_pay1 (F := Ideal) i = 0 := Ideal.ofBits_zero_f32

/-- The stored block at (0, channel, lane), at the ideal values: the block loaded from the output, plus the sum over the
    4096 rows of the input block's clamped entry on a DC lane and of zero on any other lane. -/
theorem pay2_apply (x : Vec Ideal S2x4096x128 .f32) (acc : Vec Ideal S1x2x128 .f32) (ch : Fin 2) (l : Fin 128) :
    k1_pay2 (F := Ideal) x acc (ix3 0 ch l)
      = acc (ix3 0 ch l) + ∑ r : Fin 4096, (if l.val = 0 ∨ l.val = 64 then clamp (x (ix3 ch r l)) else 0) := by
  unfold k1_pay2
  dsimp only
  refine (addf_apply _ _ _).trans ?_
  refine congrArg₂ (· + ·) (congrFun (shapeCast_self acc shapeCasts_S1x2x128_S1x2x128) _) ?_
  refine (shapeCast_addUnit_apply ![2, 128] _ shapeCasts_S2x128_S1x2x128 (ix3 0 ch l)).trans ?_
  refine (Ideal.multiReduction_add_single _ _ reduces_S2x4096x128_S2x128 _ _ _).trans ?_
  show ∑ r : Fin 4096, _ = _
  refine Finset.sum_congr rfl fun r _ => ?_
  have hidx : reduces_S2x4096x128_S2x128.lift (fun a => (ix3 (0 : Fin 1) ch l) a.succ) r = ix3 ch r l := by
    funext a; apply Fin.ext
    match a with
    | ⟨0, _⟩ => rfl
    | ⟨1, _⟩ => rfl
    | ⟨2, _⟩ => rfl
  refine (congrArg _ hidx).trans ?_
  refine (select_apply _ _ _ _).trans ?_
  have hbit : (ori (cmpi .eq (iota .tc S2x4096x128 32 [2] iota_S2x4096x128_d2_w32) (broadcast S2x4096x128 0#32))
      (cmpi .eq (iota .tc S2x4096x128 32 [2] iota_S2x4096x128_d2_w32) (broadcast S2x4096x128 64#32))) (ix3 ch r l)
      = if l.val = 0 ∨ l.val = 64 then 1#1 else 0#1 := by
    show IntOp.ori (IntOp.cmpi .eq (iota .tc S2x4096x128 32 [2] iota_S2x4096x128_d2_w32 (ix3 ch r l)) 0#32)
      (IntOp.cmpi .eq (iota .tc S2x4096x128 32 [2] iota_S2x4096x128_d2_w32 (ix3 ch r l)) 64#32) = _
    rw [iota_single_apply .tc S2x4096x128 32 2 iota_S2x4096x128_d2_w32 (ix3 ch r l)]
    exact lane_bit l
  refine (congrArg (fun b => Scalar.select b _ _) hbit).trans ?_
  by_cases hl : l.val = 0 ∨ l.val = 64
  · rw [if_pos hl, if_pos hl]
    refine (select_one _ _).trans ?_
    show min hi (max lo (shapeCast S2x4096x128 x shapeCasts_S2x4096x128_S2x4096x128 (ix3 ch r l))) = clamp (x (ix3 ch r l))
    rw [shapeCast_self]
    rfl
  · rw [if_neg hl, if_neg hl]
    exact (select_zero _ _).trans Ideal.ofBits_zero_f32

end Payload

section Value

-- the TensorCore's buffer contents when the region is entered, at the ideal values
variable (V : (c : Dev nD) → (b : Ref sig .tc) → Buf (Elt Ideal) ((c : Thread nD τ).loc b))

/-- The input array as the region finds it, and its block at a point, each by its literal type. -/
abbrev xarr (c : Dev nD) : Vec Ideal S2x32768x128 .f32 := V c main_v3
abbrev xblk (c : Dev nD) (t : Fin cfg1.N) : Vec Ideal S2x4096x128 .f32 := iblk1 V c 0 t

/-- The input's block index at point `t` is (0, t, 0): decided over the grid. -/
theorem idx1_0 : ∀ t : Fin cfg1.N, win1_0.index t (0 : Fin 3) = 0 ∧ win1_0.index t (1 : Fin 3) = t.val
    ∧ win1_0.index t (2 : Fin 3) = 0 :=
  (by decide +kernel : ∀ t : Fin grid1.N, win1_0.index t (0 : Fin 3) = 0 ∧ win1_0.index t (1 : Fin 3) = t.val
    ∧ win1_0.index t (2 : Fin 3) = 0)

/-- The output's block index at point `t` is (t / 4, 0, 0): decided over the grid. -/
theorem idx1_1 : ∀ t : Fin cfg1.N, win1_1.index t (0 : Fin 3) = t.val / 4 ∧ win1_1.index t (1 : Fin 3) = 0
    ∧ win1_1.index t (2 : Fin 3) = 0 :=
  (by decide +kernel : ∀ t : Fin grid1.N, win1_1.index t (0 : Fin 3) = t.val / 4 ∧ win1_1.index t (1 : Fin 3) = 0
    ∧ win1_1.index t (2 : Fin 3) = 0)

/-- The input block at point `t` reads the array at rows `t · 4096 + r`. -/
theorem xblk_apply (c : Dev nD) (t : Fin cfg1.N) (ch : Fin 2) (r : Fin 4096) (l : Fin 128)
    (h : t.val * 4096 + r.val < 32768) :
    xblk V c t (ix3 ch r l) = xarr V c (ix3 ch ⟨t.val * 4096 + r.val, h⟩ l) := by
  obtain ⟨e0, e1, e2⟩ := idx1_0 t
  show V c main_v3 (((cfg1.win 0).blk t).view.emb (ix3 ch r l)) = V c main_v3 (ix3 ch ⟨t.val * 4096 + r.val, h⟩ l)
  refine congrArg (V c main_v3) ?_
  funext a; apply Fin.ext
  match a with
  | ⟨0, _⟩ => show win1_0.index t (0 : Fin 3) * 2 + 1 * ch.val = ch.val; omega
  | ⟨1, _⟩ => show win1_0.index t (1 : Fin 3) * 4096 + 1 * r.val = t.val * 4096 + r.val; omega
  | ⟨2, _⟩ => show win1_0.index t (2 : Fin 3) * 128 + 1 * l.val = l.val; omega

/-- Row `r` of the `b`-th block of 4096 rows, taken modulo the number of rows so that it is a row for every natural `b`
    (for `b` below 8 nothing wraps). -/
def rowN (b : ℕ) (r : Fin 4096) : Fin 32768 := ⟨(b * 4096 + r.val) % 32768, Nat.mod_lt _ (by decide)⟩

/-- The `b`-th block's addend at (channel, lane): the sum over its 4096 rows of the clamped entry on a DC lane, of zero on
    any other lane. -/
def blockSum (x : ChromaRows.Idx → EReal) (ch : Fin 2) (l : Fin 128) (b : ℕ) : EReal :=
  ∑ r : Fin 4096, (if l.val = 0 ∨ l.val = 64 then clamp (x (ix3 ch (rowN b r) l)) else 0)

/-- The masked row sum of the input block at point `t` is the `t`-th block's addend. -/
theorem blk_sum (c : Dev nD) (t : Fin cfg1.N) (ch : Fin 2) (l : Fin 128) :
    (∑ r : Fin 4096, (if l.val = 0 ∨ l.val = 64 then clamp (xblk V c t (ix3 ch r l)) else 0))
      = blockSum (xarr V c) ch l t.val := by
  have hN : t.val < 8 := lt_of_lt_of_eq t.isLt (show cfg1.N = 8 from N_1)
  unfold blockSum
  refine Finset.sum_congr rfl fun r _ => ?_
  have hr : r.val < 4096 := r.isLt
  have hb : t.val * 4096 + r.val < 32768 := by omega
  have hrow : (⟨t.val * 4096 + r.val, hb⟩ : Fin 32768) = rowN t.val r :=
    Fin.ext (by show t.val * 4096 + r.val = (t.val * 4096 + r.val) % 32768; omega)
  rw [xblk_apply V c t ch r l hb, hrow]

/-- At a point that opens a half the output's staging buffer is left at that block's addend (zero plus it). -/
theorem outsAt_A (c : Dev nD) (t : Fin cfg1.N) (h0 : t.val % 4 = 0) (ch : Fin 2) (l : Fin 128) :
    outsAt1 V c t.val t.isLt (ix3 0 ch l) = blockSum (xarr V c) ch l t.val := by
  rw [outsAt1_A V c t h0]
  refine (congrFun (out_A (F := Ideal) c (grid1.coords t) (ms1_0 t) (hs1_0 t) (ms1_1 t) (hs1_1 t)
    ((hcond1_0 t).mpr h0) (xblk V c t)) (ix3 0 ch l)).trans ?_
  rw [pay2_apply, pay1_apply, zero_add, blk_sum]

/-- At any other point it is left at what the point before left plus that block's addend. -/
theorem outsAt_B (c : Dev nD) (t : Fin cfg1.N) (h0 : ¬t.val % 4 = 0) (ch : Fin 2) (l : Fin 128) :
    outsAt1 V c t.val t.isLt (ix3 0 ch l)
      = outsAt1 V c (t.val - 1) (Nat.lt_of_le_of_lt (Nat.sub_le _ _) t.isLt) (ix3 0 ch l)
        + blockSum (xarr V c) ch l t.val := by
  rw [outsAt1_B V c t h0]
  refine (congrFun (out_B (F := Ideal) c (grid1.coords t) (ms1_0 t) (hs1_0 t) (ms1_1 t) (hs1_1 t)
    (fun h => h0 ((hcond1_0 t).mp h)) (xblk V c t)
    (outsAt1 V c (t.val - 1) (Nat.lt_of_le_of_lt (Nat.sub_le _ _) t.isLt))) (ix3 0 ch l)).trans ?_
  rw [pay2_apply, blk_sum]

/-- THE INVARIANT: after point `n` the output's staging buffer holds, at (0, channel, lane), the sum of the addends of the
    blocks from the first of `n`'s half, `n - n % 4`, up to `n`. -/
theorem outsAt_eq (c : Dev nD) (ch : Fin 2) (l : Fin 128) : ∀ (n : ℕ) (h : n < cfg1.N),
    outsAt1 V c n h (ix3 0 ch l) = ∑ j ∈ Finset.range (n % 4 + 1), blockSum (xarr V c) ch l (n - n % 4 + j) := by
  intro n
  induction n with
  | zero =>
    intro h
    refine (outsAt_A V c ⟨0, h⟩ rfl ch l).trans ?_
    rw [Finset.sum_range_one]
  | succ n ih =>
    intro h
    by_cases h0 : (n + 1) % 4 = 0
    · refine (outsAt_A V c ⟨n + 1, h⟩ h0 ch l).trans ?_
      rw [h0, Finset.sum_range_one]
      rfl
    · refine (outsAt_B V c ⟨n + 1, h⟩ h0 ch l).trans ?_
      have e1 : (n + 1) % 4 = n % 4 + 1 := by omega
      have e2 : n + 1 - (n % 4 + 1) = n - n % 4 := by omega
      have e3 : n - n % 4 + (n % 4 + 1) = n + 1 := by omega
      rw [e1, e2, Finset.sum_range_succ, ← ih (Nat.lt_of_succ_lt h), e3]
      rfl

/-- WHAT A FLUSHING POINT WRITES BACK (the last point of a half) is its block of the halves' partial sums. -/
theorem flushed_eq (c : Dev nD) (t : Fin cfg1.N) (hf : (cfg1.win 1).flush t = true) :
    (dat1 V c).flushed 1 t = ((cfg1.win 1).blk t).view.read (Elt Ideal) (dcHalves (V c main_v3)) := by
  have hN : t.val < 8 := lt_of_lt_of_eq t.isLt (show cfg1.N = 8 from N_1)
  have h3 : t.val % 4 = 3 := (flush1_1 t).mp hf
  have hp : t.val / 4 < 2 := by omega
  obtain ⟨e0, e1, e2⟩ := idx1_1 t
  show (cfg1.win 1).cut (grid1.coords t) ((dat1 V c).after 1 t) = _
  rw [after1_1]
  refine funext fun (y : S1x2x128.Idx) => ?_
  obtain ⟨a, ch, l, rfl⟩ : ∃ (a : Fin 1) (ch : Fin 2) (l : Fin 128), y = ix3 a ch l := ⟨y 0, y 1, y 2, eq_ix3 y⟩
  obtain rfl : a = 0 := Subsingleton.elim _ _
  show outsAt1 V c t.val t.isLt (ix3 0 ch l) = dcHalves (V c main_v3) (((cfg1.win 1).blk t).view.emb (ix3 (0 : Fin 1) ch l))
  have hemb : ((cfg1.win 1).blk t).view.emb (ix3 (0 : Fin 1) ch l) = ix3 (⟨t.val / 4, hp⟩ : Fin 2) ch l := by
    funext a; apply Fin.ext
    match a with
    | ⟨0, _⟩ => show win1_1.index t (0 : Fin 3) * 1 + 1 * 0 = t.val / 4; omega
    | ⟨1, _⟩ => show win1_1.index t (1 : Fin 3) * 2 + 1 * ch.val = ch.val; omega
    | ⟨2, _⟩ => show win1_1.index t (2 : Fin 3) * 128 + 1 * l.val = l.val; omega
  rw [hemb, outsAt_eq V c ch l t.val t.isLt, h3]
  show ∑ j ∈ Finset.range 4, blockSum (xarr V c) ch l (t.val - 3 + j)
    = ∑ k : Fin 4, ∑ r : Fin 4096,
        (if l.val = 0 ∨ l.val = 64 then clamp (V c main_v3 (ix3 ch (rowOf ⟨t.val / 4, hp⟩ k r) l)) else 0)
  rw [Finset.sum_range]
  refine Finset.sum_congr rfl fun k _ => ?_
  unfold blockSum
  refine Finset.sum_congr rfl fun r _ => ?_
  have hk : k.val < 4 := k.isLt
  have hr : r.val < 4096 := r.isLt
  have hrow : rowN (t.val - 3 + k.val) r = rowOf ⟨t.val / 4, hp⟩ k r :=
    Fin.ext (by show ((t.val - 3 + k.val) * 4096 + r.val) % 32768 = (t.val / 4 * 4 + k.val) * 4096 + r.val; omega)
  rw [hrow]

/-- An index of the output array is in point `t`'s block iff each coordinate is in the block's range on its axis. -/
theorem mem_blk (t : Fin cfg1.N) (i : S2x2x128.Idx) :
    i ∈ ((cfg1.win 1).blk t).view.set ↔ ∀ a : Fin 3, win1_1.index t a * S1x2x128.size a ≤ (i a).val
      ∧ (i a).val < win1_1.index t a * S1x2x128.size a + S1x2x128.size a := by
  show i ∈ ((View.whole main_v4).slice (win1_1.rect t)).set ↔ _
  rw [View.set_slice_whole, Rect.mem_set_unit]
  exact Iff.rfl

/-- Index (p, channel, lane) of the output array is in the block the last point of half `p` writes back. -/
theorem cover (i : S2x2x128.Idx) :
    ∃ t : Fin cfg1.N, (cfg1.win 1).flush t = true ∧ i ∈ ((cfg1.win 1).blk t).view.set := by
  have h0 : (i 0).val < 2 := (i 0).isLt
  have h1 : (i 1).val < 2 := (i 1).isLt
  have h2 : (i 2).val < 128 := (i 2).isLt
  have hN : cfg1.N = 8 := N_1
  obtain ⟨t, tv⟩ : ∃ t : Fin cfg1.N, t.val = 4 * (i 0).val + 3 := ⟨⟨4 * (i 0).val + 3, by omega⟩, rfl⟩
  obtain ⟨e0, e1, e2⟩ := idx1_1 t
  refine ⟨t, (flush1_1 t).mpr (by omega), ?_⟩
  rw [mem_blk]
  intro a
  match a with
  | ⟨0, _⟩ => show win1_1.index t (0 : Fin 3) * 1 ≤ (i 0).val ∧ (i 0).val < win1_1.index t (0 : Fin 3) * 1 + 1; omega
  | ⟨1, _⟩ => show win1_1.index t (1 : Fin 3) * 2 ≤ (i 1).val ∧ (i 1).val < win1_1.index t (1 : Fin 3) * 2 + 2; omega
  | ⟨2, _⟩ => show win1_1.index t (2 : Fin 3) * 128 ≤ (i 2).val ∧ (i 2).val < win1_1.index t (2 : Fin 3) * 128 + 128; omega

end Value

end DcSum

open DcSum

-- the TensorCore's buffer contents when the region is entered, at the ideal values
variable (V : (c : Dev nD) → (b : Ref sig .tc) → Buf (Elt Ideal) ((c : Thread nD τ).loc b))

/-- After the region the output array holds, at (half, channel, lane), the sum over the half's four blocks of 4096 rows of
    the clamped coefficient on a DC lane and of zero on any other lane. -/
theorem dcsum_array (c : Dev nD) :
    (dat1 V c).arrAt 1 cfg1.N = dcHalves (V c main_v3) :=
  (dat1 V c).arrAt_eq_of_cover 1 (dcHalves (V c main_v3)) (fun t hf => flushed_eq V c t hf) fun i => cover i

end Cert.DctColor.Kernel

end
-- ==== Proof.Contrast.lean ====
/-
  The third region: contrast on the lane-dense chroma rows, eight blocks of 4096 rows, with the value to add on the DC lanes
  read whole at every point.
-/
import proofs.«418010_j49237505082026_3_alg».proof.Proof.Gen.KernelIdeal.Frame
import proofs.«418010_j49237505082026_3_alg».proof.Proof.Spec
import Idealize.ShloMosaic.Lib.Pipeline.Value
import Idealize.ShloMosaic.Lib.ValueIdx

set_option maxRecDepth 16384

noncomputable section

open scoped BigOperators

namespace Cert.DctColor.Kernel

open Cert.KernelIdeal Cert.KernelIdeal.Gen Cert.DctColor
open Idealize.ShloMosaic Idealize.ShloMosaic.TcCoe Idealize.ShloMosaic.ValueIdx Idealize.SL.Sem
open Idealize.ShloMosaic.Pipeline (Dat Cfg Window)

-- the TensorCore's buffer contents when the region is entered, at the ideal values
variable (V : (c : Dev nD) → (b : Ref sig .tc) → Buf (Elt Ideal) ((c : Thread nD τ).loc b))

/-- The origin of a block of rows: offset zero on the three axes. -/
theorem contrast_origin : (![0, 0, 0] : Fin 3 → Nat) = fun _ => 0 :=
  funext fun a => by match a with | ⟨0, _⟩ => rfl | ⟨1, _⟩ => rfl | ⟨2, _⟩ => rfl

/-- The origin of the second operand, read whole: offset zero on both axes. -/
theorem corr_origin : (![0, 0] : Fin 2 → Nat) = fun _ => 0 :=
  funext fun a => by match a with | ⟨0, _⟩ => rfl | ⟨1, _⟩ => rfl

/-- The mask bit of a lane, "the lane's number is 0 or is 64" on 32-bit words, is set exactly on lanes 0 and 64. -/
theorem dc_bit : ∀ l : Fin 128,
    IntOp.ori (IntOp.cmpi .eq (BitVec.ofNat 32 l.val) 0#32) (IntOp.cmpi .eq (BitVec.ofNat 32 l.val) 64#32) = 1#1
      ↔ (l.val = 0 ∨ l.val = 64) := by
  decide +kernel

/-- So a choice by that bit is a choice by "the lane is 0 or 64". -/
theorem dc_select {α : Type} (l : Fin 128) (a b : α) :
    Scalar.select (IntOp.ori (IntOp.cmpi .eq (BitVec.ofNat 32 l.val) 0#32) (IntOp.cmpi .eq (BitVec.ofNat 32 l.val) 64#32)) a b
      = if l.val = 0 ∨ l.val = 64 then a else b := by
  unfold Scalar.select
  exact if_congr (dc_bit l) rfl rfl

/-- The second operand given a unit axis and copied down the 4096 rows reads, at (channel, row, lane), its entry at
    (channel, lane). -/
theorem corr_rows (x1 : Vec Ideal S2x128 .f32) (p : Fin 2) (q : Fin 4096) (l : Fin 128) :
    broadcastTo S2x4096x128 (shapeCast S2x1x128 x1 shapeCasts_S2x128_S2x1x128) broadcasts_S2x1x128_S2x4096x128 (ix3 p q l)
      = x1 (ix2 p l) := by
  rw [broadcastTo_apply _ _ (ix3 p q l) (ix3 p (0 : Fin 1) l) (fun a => by
    match a with
    | ⟨0, _⟩ => rfl
    | ⟨1, _⟩ => rfl
    | ⟨2, _⟩ => rfl)]
  exact shapeCast_apply x1 _ (ix3 p (0 : Fin 1) l) (ix2 p l) (by
    rw [Shape.rowMajor_val_two, Shape.rowMajor_val_three]
    show p.val * 128 + l.val = (p.val * 1 + 0) * 128 + l.val
    omega)

/-- The body's payload at (channel, row, lane): the loaded value clamped, times the gain, plus on lanes 0 and 64 the second
    operand's entry for the channel and lane, clamped again. -/
theorem contrast_payload_at (x0 : Vec Ideal S2x4096x128 .f32) (x1 : Vec Ideal S2x128 .f32)
    (p : Fin 2) (q : Fin 4096) (l : Fin 128) :
    k2_pay1 x0 x1 (ix3 p q l)
      = clamp (clamp (x0 (ix3 p q l)) * gain + (if l.val = 0 ∨ l.val = 64 then x1 (ix2 p l) else 0)) := by
  unfold k2_pay1
  simp only [shapeCast_self]
  have hlane : iota .tc S2x4096x128 32 [2] iota_S2x4096x128_d2_w32 (ix3 p q l) = BitVec.ofNat 32 l.val :=
    iota_single_apply .tc S2x4096x128 32 2 iota_S2x4096x128_d2_w32 (ix3 p q l)
  show min hi (max lo (min hi (max lo (x0 (ix3 p q l))) * gain
      + Scalar.select (IntOp.ori
          (IntOp.cmpi .eq (iota .tc S2x4096x128 32 [2] iota_S2x4096x128_d2_w32 (ix3 p q l)) 0#32)
          (IntOp.cmpi .eq (iota .tc S2x4096x128 32 [2] iota_S2x4096x128_d2_w32 (ix3 p q l)) 64#32))
        (broadcastTo S2x4096x128 (shapeCast S2x1x128 x1 shapeCasts_S2x128_S2x1x128) broadcasts_S2x1x128_S2x4096x128 (ix3 p q l))
        (Ideal.ofBits .f32 0x00000000#32))) = _
  rw [hlane, corr_rows, dc_select, Ideal.ofBits_zero_f32]
  rfl

/-- Over the eight points: the input rows' block and the output's block are the same block, block `t` of the rows and the only
    block of channels and of lanes; the second operand's block is its only one. -/
theorem contrast_index : ∀ t : Fin cfg2.N, win2_0.index t (0 : Fin 3) = win2_2.index t (0 : Fin 3) + 0
    ∧ win2_0.index t (1 : Fin 3) = win2_2.index t (1 : Fin 3) + 0
    ∧ win2_0.index t (2 : Fin 3) = win2_2.index t (2 : Fin 3) + 0
    ∧ win2_1.index t (0 : Fin 2) = 0
    ∧ win2_1.index t (1 : Fin 2) = 0
    ∧ win2_2.index t (0 : Fin 3) = 0
    ∧ win2_2.index t (1 : Fin 3) = t.val
    ∧ win2_2.index t (2 : Fin 3) = 0 :=
  (by decide +kernel : ∀ t : Fin grid2.N, _)

/-- What point `t` writes back is block `t` of the contrast of the whole input rows with the whole second operand. -/
theorem contrast_flushed (c : Dev nD) (t : Fin cfg2.N) :
    (dat2 V c).flushed 2 t
      = ((cfg2.win 2).blk t).view.read (Elt Ideal) (contrastRows (V c main_v3) (V c main_v13)) := by
  show (cfg2.win 2).cut (grid2.coords t) ((dat2 V c).after 2 t) = _
  rw [after2_2]
  unfold out2_2
  rw [View.canon_unit_zero contrast_origin]
  simp only [View.ld_unit_zero (S := S2x4096x128) contrast_origin, View.ld_unit_zero (S := S2x128) corr_origin]
  obtain ⟨e0, e1, e2, e3, e4, e5, e6, e7⟩ := contrast_index t
  funext j
  obtain ⟨p, q, l, rfl⟩ : ∃ (p : Fin 2) (q : Fin 4096) (l : Fin 128), j = ix3 p q l := ⟨j 0, j 1, j 2, eq_ix3 j⟩
  have h0 : ((cfg2.win 0).blk t).view.emb (ix3 p q l) = ((cfg2.win 2).blk t).view.emb (ix3 p q l) := by
    funext a; apply Fin.ext
    match a with
    | ⟨0, _⟩ =>
      show win2_0.index t (0 : Fin 3) * 2 + 1 * p.val = win2_2.index t (0 : Fin 3) * 2 + 1 * p.val
      omega
    | ⟨1, _⟩ =>
      show win2_0.index t (1 : Fin 3) * 4096 + 1 * q.val = win2_2.index t (1 : Fin 3) * 4096 + 1 * q.val
      omega
    | ⟨2, _⟩ =>
      show win2_0.index t (2 : Fin 3) * 128 + 1 * l.val = win2_2.index t (2 : Fin 3) * 128 + 1 * l.val
      omega
  have h1 : ((cfg2.win 1).blk t).view.emb (ix2 p l)
      = ix2 ((((cfg2.win 2).blk t).view.emb (ix3 p q l)) 0) ((((cfg2.win 2).blk t).view.emb (ix3 p q l)) 2) := by
    funext a; apply Fin.ext
    match a with
    | ⟨0, _⟩ =>
      show win2_1.index t (0 : Fin 2) * 2 + 1 * p.val = win2_2.index t (0 : Fin 3) * 2 + 1 * p.val
      omega
    | ⟨1, _⟩ =>
      show win2_1.index t (1 : Fin 2) * 128 + 1 * l.val = win2_2.index t (2 : Fin 3) * 128 + 1 * l.val
      omega
  have h2 : ((((cfg2.win 2).blk t).view.emb (ix3 p q l)) 2).val = l.val := by
    show win2_2.index t (2 : Fin 3) * 128 + 1 * l.val = l.val
    omega
  show k2_pay1 (iblk2 V c 0 t) (iblk2 V c 1 t) (ix3 p q l)
    = contrastRows (V c main_v3) (V c main_v13) (((cfg2.win 2).blk t).view.emb (ix3 p q l))
  rw [contrast_payload_at]
  show clamp (clamp (V c main_v3 (((cfg2.win 0).blk t).view.emb (ix3 p q l))) * gain
      + (if l.val = 0 ∨ l.val = 64 then (V c main_v13 (((cfg2.win 1).blk t).view.emb (ix2 p l)) : EReal) else (0 : EReal)))
    = clamp (clamp (V c main_v3 (((cfg2.win 2).blk t).view.emb (ix3 p q l))) * gain
      + (if ((((cfg2.win 2).blk t).view.emb (ix3 p q l)) 2).val = 0 ∨ ((((cfg2.win 2).blk t).view.emb (ix3 p q l)) 2).val = 64
          then (V c main_v13 (ix2 ((((cfg2.win 2).blk t).view.emb (ix3 p q l)) 0) ((((cfg2.win 2).blk t).view.emb (ix3 p q l)) 2)) : EReal)
          else (0 : EReal)))
  rw [h0, h1, h2]
  rfl

/-- An index of the array is in point `t`'s block iff each coordinate is in the block's range on its axis. -/
theorem contrast_mem_blk (t : Fin cfg2.N) (i : S2x32768x128.Idx) :
    i ∈ ((cfg2.win 2).blk t).view.set ↔ ∀ a : Fin 3, win2_2.index t a * S2x4096x128.size a ≤ (i a).val
      ∧ (i a).val < win2_2.index t a * S2x4096x128.size a + S2x4096x128.size a := by
  show i ∈ ((View.whole main_v14).slice (win2_2.rect t)).set ↔ _
  rw [View.set_slice_whole, Rect.mem_set_unit]
  exact Iff.rfl

/-- Every index of the array is in some point's block: row `r` is in block `r / 4096`. -/
theorem contrast_cover (i : S2x32768x128.Idx) :
    ∃ t : Fin cfg2.N, (cfg2.win 2).flush t = true ∧ i ∈ ((cfg2.win 2).blk t).view.set := by
  have hi0 : (i 0).val < 2 := (i 0).isLt
  have hi1 : (i 1).val < 32768 := (i 1).isLt
  have hi2 : (i 2).val < 128 := (i 2).isLt
  have ht : (i 1).val / 4096 < 8 := by omega
  let t : Fin cfg2.N := ⟨(i 1).val / 4096, ht⟩
  obtain ⟨e0, e1, e2, e3, e4, e5, e6, e7⟩ := contrast_index t
  have e6' : win2_2.index t (1 : Fin 3) = (i 1).val / 4096 := e6
  refine ⟨t, flush2_2 t, ?_⟩
  rw [contrast_mem_blk]
  intro a
  match a with
  | ⟨0, _⟩ =>
    show win2_2.index t (0 : Fin 3) * 2 ≤ (i 0).val ∧ (i 0).val < win2_2.index t (0 : Fin 3) * 2 + 2
    omega
  | ⟨1, _⟩ =>
    show win2_2.index t (1 : Fin 3) * 4096 ≤ (i 1).val ∧ (i 1).val < win2_2.index t (1 : Fin 3) * 4096 + 4096
    omega
  | ⟨2, _⟩ =>
    show win2_2.index t (2 : Fin 3) * 128 ≤ (i 2).val ∧ (i 2).val < win2_2.index t (2 : Fin 3) * 128 + 128
    omega

/-- After the region the output array holds, at every index, the clamped input times the gain, plus on a DC lane the
    second operand's entry for the channel and lane, clamped. -/
theorem contrast_array (c : Dev nD) :
    (dat2 V c).arrAt 2 cfg2.N = contrastRows (V c main_v3) (V c main_v13) :=
  (dat2 V c).arrAt_eq_of_cover 2 _ (fun t _ => contrast_flushed V c t) contrast_cover

end Cert.DctColor.Kernel

end
-- ==== Proof.Bridge.lean ====
/-
  From the lane-dense layouts back to blocks of 8×8 coefficients.
-/
import proofs.«418010_j49237505082026_3_alg».proof.Proof.Spec
import Idealize.ShloMosaic.Lib.Pipeline.Value

noncomputable section

open scoped BigOperators

namespace Cert.DctColor

open Idealize.ShloMosaic Idealize.ShloMosaic.ValueIdx

section Reindex
variable {M : Type*} [AddCommMonoid M]

/-- A double sum over the values a·n + b is the single sum over the first m·n naturals. -/
theorem sum_mul_add (m n : ℕ) (f : ℕ → M) :
    ∑ a : Fin m, ∑ b : Fin n, f (a.val * n + b.val) = ∑ k ∈ Finset.range (m * n), f k := by
  rw [← Fin.sum_univ_eq_sum_range f (m * n), ← Equiv.sum_comp finProdFinEquiv, Fintype.sum_prod_type]
  refine Finset.sum_congr rfl fun a _ => Finset.sum_congr rfl fun b _ => ?_
  show f (a.val * n + b.val) = f (b.val + n * a.val)
  rw [Nat.add_comm, Nat.mul_comm]

/-- The even and the odd naturals below 2n are, together, all of them. -/
theorem sum_even_add_sum_odd (n : ℕ) (f : ℕ → M) :
    ∑ s : Fin n, f (2 * s.val) + ∑ s : Fin n, f (2 * s.val + 1) = ∑ k ∈ Finset.range (n * 2), f k := by
  rw [← Finset.sum_add_distrib, ← sum_mul_add n 2 f]
  refine Finset.sum_congr rfl fun s _ => ?_
  rw [Fin.sum_univ_two]
  show f (2 * s.val) + f (2 * s.val + 1) = f (s.val * 2 + 0) + f (s.val * 2 + 1)
  rw [Nat.add_zero (s.val * 2), Nat.mul_comm 2 s.val]

/-- Two halves of four blocks of 4096 rows are the 32768 rows, each once. -/
theorem sum_halves_blocks_rows (F : ℕ → M) :
    ∑ p : Fin 2, ∑ k : Fin 4, ∑ r : Fin 4096, F ((p.val * 4 + k.val) * 4096 + r.val) = ∑ s : Fin 32768, F s.val := by
  rw [sum_mul_add 2 4 (fun q => ∑ r : Fin 4096, F (q * 4096 + r.val)), Finset.sum_range, sum_mul_add (2 * 4) 4096 F,
    Fin.sum_univ_eq_sum_range F 32768]

end Reindex

/-- The clamped DC coefficient of block `n` of channel `c`, the blocks numbered row by row (zero past the last block). -/
def dcOf (x : Chroma.Idx → EReal) (c : Fin 2) (n : ℕ) : EReal :=
  if hn : n < 65536 then clamp (x (ix5 c ⟨n / 256, by omega⟩ ⟨n % 256, by omega⟩ 0 0)) else 0

/-- Block `hh · 256 + w` is the block at row `hh`, column `w`. -/
theorem dcOf_block (x : Chroma.Idx → EReal) (c : Fin 2) (hh w : Fin 256) :
    dcOf x c (hh.val * 256 + w.val) = clamp (x (ix5 c hh w 0 0)) := by
  have hlt : hh.val * 256 + w.val < 65536 := by have := hh.isLt; have := w.isLt; omega
  unfold dcOf
  rw [dif_pos hlt]
  have e1 : (⟨(hh.val * 256 + w.val) / 256, by omega⟩ : Fin 256) = hh := Fin.ext (by show (hh.val * 256 + w.val) / 256 = hh.val; have := w.isLt; omega)
  have e2 : (⟨(hh.val * 256 + w.val) % 256, by omega⟩ : Fin 256) = w := Fin.ext (by show (hh.val * 256 + w.val) % 256 = w.val; have := w.isLt; omega)
  rw [e1, e2]

/-- Lane 0 of row `s` of the lane-dense layout holds the DC coefficient of block `2s`. -/
theorem rows_lane_zero (x : Chroma.Idx → EReal) (h : Chroma.ShapeCasts ChromaRows) (c : Fin 2) (s : Fin 32768) :
    clamp (shapeCast ChromaRows x h (ix3 c s ⟨0, by omega⟩)) = dcOf x c (2 * s.val) := by
  have hlt : 2 * s.val < 65536 := by have := s.isLt; omega
  unfold dcOf
  rw [dif_pos hlt]
  refine congrArg clamp (shapeCast_apply x h _ _ ?_)
  rw [Shape.rowMajor_val_five, Shape.rowMajor_val_three]
  show (((c.val * 256 + 2 * s.val / 256) * 256 + 2 * s.val % 256) * 8 + 0) * 8 + 0 = (c.val * 32768 + s.val) * 128 + 0
  omega

/-- Lane 64 of row `s` holds the DC coefficient of block `2s + 1`. -/
theorem rows_lane_sixtyfour (x : Chroma.Idx → EReal) (h : Chroma.ShapeCasts ChromaRows) (c : Fin 2) (s : Fin 32768) :
    clamp (shapeCast ChromaRows x h (ix3 c s ⟨64, by omega⟩)) = dcOf x c (2 * s.val + 1) := by
  have hlt : 2 * s.val + 1 < 65536 := by have := s.isLt; omega
  unfold dcOf
  rw [dif_pos hlt]
  refine congrArg clamp (shapeCast_apply x h _ _ ?_)
  rw [Shape.rowMajor_val_five, Shape.rowMajor_val_three]
  show (((c.val * 256 + (2 * s.val + 1) / 256) * 256 + (2 * s.val + 1) % 256) * 8 + 0) * 8 + 0 = (c.val * 32768 + s.val) * 128 + 64
  omega

/-- On lane 0 a half's partial sum is the plain sum of the clamped coefficients over the half's rows. -/
theorem dcHalves_lane_zero (X : ChromaRows.Idx → EReal) (p c : Fin 2) :
    dcHalves X (ix3 p c ⟨0, by omega⟩)
      = ∑ k : Fin 4, ∑ r : Fin 4096, clamp (X (ix3 c (rowOf p k r) ⟨0, by omega⟩)) := by
  unfold dcHalves
  exact Finset.sum_congr rfl fun k _ => Finset.sum_congr rfl fun r _ => if_pos (Or.inl rfl)

/-- The same on lane 64. -/
theorem dcHalves_lane_sixtyfour (X : ChromaRows.Idx → EReal) (p c : Fin 2) :
    dcHalves X (ix3 p c ⟨64, by omega⟩)
      = ∑ k : Fin 4, ∑ r : Fin 4096, clamp (X (ix3 c (rowOf p k r) ⟨64, by omega⟩)) := by
  unfold dcHalves
  exact Finset.sum_congr rfl fun k _ => Finset.sum_congr rfl fun r _ => if_pos (Or.inr rfl)

/-- The two halves' partial sums on lanes 0 and 64, added up, are the sum of the clamped DC coefficients over all of the
    channel's blocks: lane 0 gives the even-numbered blocks, lane 64 the odd-numbered ones, and the two halves' rows are
    all the rows. -/
theorem halves_sum (x : Chroma.Idx → EReal) (h : Chroma.ShapeCasts ChromaRows) (c : Fin 2) :
    (0 + ∑ p : Fin 2, dcHalves (shapeCast ChromaRows x h) (ix3 p c ⟨0, by omega⟩))
        + (0 + ∑ p : Fin 2, dcHalves (shapeCast ChromaRows x h) (ix3 p c ⟨64, by omega⟩))
      = 0 + ∑ hh : Fin 256, ∑ w : Fin 256, clamp (x (ix5 c hh w 0 0)) := by
  have A : ∑ p : Fin 2, dcHalves (shapeCast ChromaRows x h) (ix3 p c ⟨0, by omega⟩)
      = ∑ s : Fin 32768, dcOf x c (2 * s.val) := by
    rw [← sum_halves_blocks_rows (fun s => dcOf x c (2 * s))]
    refine Finset.sum_congr rfl fun p _ => ?_
    rw [dcHalves_lane_zero]
    exact Finset.sum_congr rfl fun k _ => Finset.sum_congr rfl fun r _ => rows_lane_zero x h c (rowOf p k r)
  have B : ∑ p : Fin 2, dcHalves (shapeCast ChromaRows x h) (ix3 p c ⟨64, by omega⟩)
      = ∑ s : Fin 32768, dcOf x c (2 * s.val + 1) := by
    rw [← sum_halves_blocks_rows (fun s => dcOf x c (2 * s + 1))]
    refine Finset.sum_congr rfl fun p _ => ?_
    rw [dcHalves_lane_sixtyfour]
    exact Finset.sum_congr rfl fun k _ => Finset.sum_congr rfl fun r _ => rows_lane_sixtyfour x h c (rowOf p k r)
  have C : ∑ hh : Fin 256, ∑ w : Fin 256, clamp (x (ix5 c hh w 0 0)) = ∑ n ∈ Finset.range (256 * 256), dcOf x c n := by
    rw [← sum_mul_add 256 256 (dcOf x c)]
    exact Finset.sum_congr rfl fun hh _ => Finset.sum_congr rfl fun w _ => (dcOf_block x c hh w).symm
  rw [A, B, C, zero_add, zero_add, zero_add, sum_even_add_sum_odd 32768 (dcOf x c)]

/-- The value added on the DC lanes, computed from the halves' partial sums, is the blend factor times the mean of the
    clamped DC coefficients over the channel's blocks. -/
theorem shiftOf_dcHalves (x : Chroma.Idx → EReal) (h : Chroma.ShapeCasts ChromaRows) (c : Fin 2) :
    shiftOf (dcHalves (shapeCast ChromaRows x h)) c
      = blend * Ideal.div (0 + ∑ hh : Fin 256, ∑ w : Fin 256, clamp (x (ix5 c hh w 0 0))) blocks := by
  unfold shiftOf
  rw [halves_sum x h c]

/-- Brightness is pointwise, so reshaping, applying it and reshaping back applies it. -/
theorem luma_bridge (y : Luma.Idx → EReal) (h : Luma.ShapeCasts LumaRows) (h' : LumaRows.ShapeCasts Luma) :
    shapeCast Luma (bright (shapeCast LumaRows y h)) h' = bright y := by
  have e : shapeCast Luma (bright (shapeCast LumaRows y h)) h' = bright (shapeCast Luma (shapeCast LumaRows y h) h') := rfl
  rw [e, shapeCast_shapeCast]

/-- Contrast on the lane-dense rows, with the value added on the DC lanes computed from the halves' partial sums, is
    contrast on the blocks: a row's lanes 0 and 64 are the DC coefficients of blocks 2s and 2s + 1, and the two halves'
    sums over both lanes together run over every block of the channel once. -/
theorem chroma_bridge (x : Chroma.Idx → EReal) (h : Chroma.ShapeCasts ChromaRows) (h' : ChromaRows.ShapeCasts Chroma)
    (corr : Lanes.Idx → EReal) (hcorr : ∀ i : Lanes.Idx, corr i = shiftOf (dcHalves (shapeCast ChromaRows x h)) (i 0)) :
    shapeCast Chroma (contrastRows (shapeCast ChromaRows x h) corr) h' = contrast x := by
  funext j
  obtain ⟨c, hh, w, a, b, rfl⟩ : ∃ c hh w a b, j = ix5 c hh w a b := ⟨j 0, j 1, j 2, j 3, j 4, eq_ix5 j⟩
  have hhlt := hh.isLt
  have hwlt := w.isLt
  have halt := a.isLt
  have hblt := b.isLt
  -- the row and the lane of coefficient (a, b) of block (hh, w)
  have hs : ((hh.val * 256 + w.val) * 64 + a.val * 8 + b.val) / 128 < 32768 := by omega
  have hl : ((hh.val * 256 + w.val) * 64 + a.val * 8 + b.val) % 128 < 128 := by omega
  have hpos : (ChromaRows.rowMajor (ix3 c ⟨_, hs⟩ ⟨_, hl⟩)).val = (Chroma.rowMajor (ix5 c hh w a b)).val := by
    rw [Shape.rowMajor_val_five, Shape.rowMajor_val_three]
    show (c.val * 32768 + ((hh.val * 256 + w.val) * 64 + a.val * 8 + b.val) / 128) * 128
        + ((hh.val * 256 + w.val) * 64 + a.val * 8 + b.val) % 128
      = (((c.val * 256 + hh.val) * 256 + w.val) * 8 + a.val) * 8 + b.val
    omega
  have hx : shapeCast ChromaRows x h (ix3 c ⟨_, hs⟩ ⟨_, hl⟩) = x (ix5 c hh w a b) :=
    shapeCast_apply x h _ _ hpos.symm
  have hlane : (((hh.val * 256 + w.val) * 64 + a.val * 8 + b.val) % 128 = 0
      ∨ ((hh.val * 256 + w.val) * 64 + a.val * 8 + b.val) % 128 = 64) ↔ (a.val = 0 ∧ b.val = 0) := by
    constructor
    · intro hor; omega
    · intro hand; omega
  rw [shapeCast_apply _ h' (ix5 c hh w a b) (ix3 c ⟨_, hs⟩ ⟨_, hl⟩) hpos]
  unfold contrastRows contrast
  show clamp (clamp (shapeCast ChromaRows x h (ix3 c ⟨_, hs⟩ ⟨_, hl⟩)) * gain
        + (if ((hh.val * 256 + w.val) * 64 + a.val * 8 + b.val) % 128 = 0
              ∨ ((hh.val * 256 + w.val) * 64 + a.val * 8 + b.val) % 128 = 64
            then corr (ix2 c ⟨_, hl⟩) else 0))
      = clamp (clamp (x (ix5 c hh w a b)) * gain
        + (if a.val = 0 ∧ b.val = 0 then
            blend * Ideal.div (0 + ∑ h : Fin 256, ∑ w : Fin 256, clamp (x (ix5 c h w 0 0))) blocks
          else 0))
  have hc : corr (ix2 c ⟨_, hl⟩)
      = blend * Ideal.div (0 + ∑ h : Fin 256, ∑ w : Fin 256, clamp (x (ix5 c h w 0 0))) blocks :=
    (hcorr _).trans (shiftOf_dcHalves x h c)
  rw [hx, hc, if_congr hlane rfl rfl]

end Cert.DctColor

end
-- ==== Proof.KernelValue.lean ====
/-
  The kernel's two results as functions of its arguments: the luma result is brightness of the luma argument, the chroma
  result contrast of the chroma argument — each region's output array, the host stretches between them, and the way
  back from the lane-dense layouts to blocks, put together.
-/
import proofs.«418010_j49237505082026_3_alg».proof.Proof.KernelRun
import proofs.«418010_j49237505082026_3_alg».proof.Proof.HostGlue
import proofs.«418010_j49237505082026_3_alg».proof.Proof.Brightness
import proofs.«418010_j49237505082026_3_alg».proof.Proof.DcSum
import proofs.«418010_j49237505082026_3_alg».proof.Proof.Contrast
import proofs.«418010_j49237505082026_3_alg».proof.Proof.Bridge

set_option maxRecDepth 16384

noncomputable section

open scoped BigOperators

namespace Cert.DctColor.Kernel

open Cert.KernelIdeal Cert.KernelIdeal.Gen Cert.DctColor
open Idealize.ShloMosaic Idealize.ShloMosaic.TcCoe Idealize.ShloMosaic.ValueIdx Idealize.SL.Sem

variable (m : (ℓ : Loc nD τ sig) → Buf (Elt Ideal) ℓ) (ρ : Dev nD → PrngReg)

/-- The luma result buffer ends at brightness of the luma argument. -/
theorem luma_value (c : Dev nD) :
    W7 m ρ c (Proc.devRef .tc main_v2) = bright (s := S1x512x512x8x8) (m ((c : Thread nD τ).loc main_arg0)) := by
  rw [result_luma, brightness_array, entry_luma]
  exact luma_bridge _ _ _

/-- The chroma result buffer ends at contrast of the chroma argument. -/
theorem chroma_value (c : Dev nD) :
    W7 m ρ c (Proc.devRef .tc main_v15) = contrast (m ((c : Thread nD τ).loc main_arg1)) := by
  rw [result_chroma, contrast_array, entry_rows_again]
  refine chroma_bridge _ _ _ (V5 m ρ c main_v13) (fun i => ?_)
  obtain ⟨q, l, rfl⟩ : ∃ (q : Fin 2) (l : Fin 128), i = ix2 q l := ⟨i 0, i 1, eq_ix2 i⟩
  rw [entry_corr, dcsum_array, entry_rows]

/-- Every weakly fair execution of the kernel's @main terminates with the two results at brightness and contrast of the
    arguments, and the arguments as launched. -/
theorem run_value : θ_run defs (onTc (τ := τ) (main (F := Ideal))) ⟨m, fun _ => 0, ρ⟩ (fun r => ∀ c : Dev nD,
      r.2.mem ((c.tc : Thread nD τ).loc main_v2) = bright (s := S1x512x512x8x8) (m ((c.tc : Thread nD τ).loc main_arg0))
      ∧ r.2.mem ((c.tc : Thread nD τ).loc main_v15) = contrast (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (luma_value m ρ c), (h c).2.1.trans (chroma_value m ρ c), (h c).2.2.1, (h c).2.2.2⟩)
    (Cert.KernelIdeal.GenP.run_results m ρ)

end Cert.DctColor.Kernel

end
-- ==== Proof.LibScatterRead.lean ====
/-
  A scatter read at one element. The host's scatter is a left fold over the update indices in row-major order; each step
  replaces the element at the update's result index by the body applied to that element and the update's. Read at one
  element of the operand: if no update index lands there, the element is unchanged; if exactly one does, it is the body
  applied to the operand's element and that update's.
-/
import Idealize.ShloMosaic.PureOps.ShapeOps
import Mathlib.Data.List.Nodup
import Mathlib.Data.List.FinRange

namespace Idealize.ShloMosaic

section Fold

variable {ι σ α : Type} [DecidableEq σ]

/-- One step of a scatter's fold: update `n`, landing at `g n` (or nowhere), applied to the array `r`. -/
def scatterStep (g : ι → Option σ) (f : α → α → α) (v : ι → α) (r : σ → α) (n : ι) : σ → α :=
  match g n with
  | some i => fun i' => if i' = i then f (r i) (v n) else r i'
  | none => r

/-- A step whose update does not land on `i'` leaves the element at `i'` as it was. -/
theorem scatterStep_of_ne (g : ι → Option σ) (f : α → α → α) (v : ι → α) (r : σ → α) (n : ι) (i' : σ)
    (h : g n ≠ some i') : scatterStep g f v r n i' = r i' := by
  unfold scatterStep
  cases hg : g n with
  | none => rfl
  | some i =>
    have hne : ¬ i' = i := fun e => h (by rw [hg, e])
    simp only [if_neg hne]

/-- A step whose update lands on `i'` puts there the body applied to the element and the update. -/
theorem scatterStep_of_eq (g : ι → Option σ) (f : α → α → α) (v : ι → α) (r : σ → α) (n : ι) (i' : σ)
    (h : g n = some i') : scatterStep g f v r n i' = f (r i') (v n) := by
  unfold scatterStep
  simp only [h, if_true]

/-- Folding updates none of which lands on `i'` leaves the element at `i'` as it was. -/
theorem foldl_scatterStep_of_miss (g : ι → Option σ) (f : α → α → α) (v : ι → α) (i' : σ) :
    ∀ (L : List ι) (x : σ → α), (∀ n ∈ L, g n ≠ some i') → L.foldl (scatterStep g f v) x i' = x i'
  | [], _, _ => rfl
  | n :: L, x, h => by
    rw [List.foldl_cons, foldl_scatterStep_of_miss g f v i' L _ (fun m hm => h m (List.mem_cons_of_mem _ hm)),
      scatterStep_of_ne g f v x n i' (h n List.mem_cons_self)]

/-- Folding a duplicate-free list of updates exactly one of which, `n₀`, lands on `i'` puts there the body applied
    to the first array's element and that update. -/
theorem foldl_scatterStep_of_unique (g : ι → Option σ) (f : α → α → α) (v : ι → α) (i' : σ) (n₀ : ι)
    (h₀ : g n₀ = some i') :
    ∀ (L : List ι) (x : σ → α), L.Nodup → n₀ ∈ L → (∀ n ∈ L, g n = some i' → n = n₀) →
      L.foldl (scatterStep g f v) x i' = f (x i') (v n₀)
  | [], _, _, hm, _ => absurd hm List.not_mem_nil
  | n :: L, x, hnd, hm, hu => by
    rw [List.foldl_cons]
    have hnd' := List.nodup_cons.1 hnd
    by_cases hn : n = n₀
    · subst hn
      rw [foldl_scatterStep_of_miss g f v i' L _ (fun m hmL e => by
          have := hu m (List.mem_cons_of_mem _ hmL) e
          exact hnd'.1 (this ▸ hmL)),
        scatterStep_of_eq g f v x n i' h₀]
    · have hmL : n₀ ∈ L := by
        rcases List.mem_cons.1 hm with e | e
        · exact absurd e.symm hn
        · exact e
      rw [foldl_scatterStep_of_unique g f v i' n₀ h₀ L _ hnd'.2 hmL (fun m hmm => hu m (List.mem_cons_of_mem _ hmm)),
        scatterStep_of_ne g f v x n i' (fun e => hn (hu n List.mem_cons_self e))]

end Fold

section Scatter

variable {s si u : Shape} {α : Type} {w : Nat}

/-- The host's scatter is the fold of `scatterStep` over the update positions in row-major order. -/
theorem Host.scatter_eq_foldl (d : ScatterDims s si u) (f : α → α → α) (x : s.Idx → α) (idx : IVec si w) (upd : u.Idx → α) :
    Host.scatter d f x idx upd
      = (List.finRange u.numel).foldl
          (scatterStep (fun n => d.resultIdx? (u.rowMajor.symm n) idx) f (fun n => upd (u.rowMajor.symm n))) x := by
  unfold Host.scatter
  refine congrArg (fun st => List.foldl st x (List.finRange u.numel)) ?_
  funext r n
  unfold scatterStep
  beta_reduce
  cases d.resultIdx? (u.rowMajor.symm n) idx <;> rfl

/-- An element of the operand that no update index lands on is unchanged by the scatter. -/
theorem Host.scatter_apply_of_miss (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  rw [Host.scatter_eq_foldl]
  exact foldl_scatterStep_of_miss _ f _ i' _ x (fun n _ => h _)

/-- An element of the operand that exactly one update index `j₀` lands on becomes the body applied to the operand's
    element and that update's. -/
theorem Host.scatter_apply_of_unique (d : ScatterDims s si u) (f : α → α → α) (x : s.Idx → α) (idx : IVec si w)
    (upd : u.Idx → α) (i' : s.Idx) (j₀ : u.Idx) (h₀ : d.resultIdx? j₀ idx = some i')
    (hu : ∀ j : u.Idx, d.resultIdx? j idx = some i' → j = j₀) :
    Host.scatter d f x idx upd i' = f (x i') (upd j₀) := by
  rw [Host.scatter_eq_foldl]
  have := foldl_scatterStep_of_unique (fun n => d.resultIdx? (u.rowMajor.symm n) idx) f
    (fun n => upd (u.rowMajor.symm n)) i' (u.rowMajor j₀) (by simp only [Equiv.symm_apply_apply]; exact h₀)
    (List.finRange u.numel) x (List.nodup_finRange _) (List.mem_finRange _)
    (fun n _ e => by
      have := hu _ e
      rw [← this, Equiv.apply_symm_apply])
  rw [this]
  simp only [Equiv.symm_apply_apply]

end Scatter

end Idealize.ShloMosaic
-- ==== Proof.ReferenceValue.lean ====
/-
  The reference's two results, index by index: brightness on the luma blocks, contrast on the chroma blocks.
-/
import proofs.«418010_j49237505082026_3_alg».proof.Proof.ReferenceRead
import proofs.«418010_j49237505082026_3_alg».proof.Proof.Spec
import proofs.«418010_j49237505082026_3_alg».proof.Proof.LibScatterRead
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.DctColor.Reference

open Cert.ReferenceIdeal Cert.ReferenceIdeal.ReadP Cert.DctColor
open Idealize.ShloMosaic Idealize.ShloMosaic.ValueIdx

/-- The reference's luma result: it clamps once more at the start and once more at the end than `bright` does, and
    clamping twice is clamping once. -/
theorem ref_luma (x0 : (⟨S1x512x512x8x8, .f32⟩ : BufTy).Contents (Elt Ideal)) :
    val_main_v22 (F := Ideal) x0 = bright (s := S1x512x512x8x8) x0 := by
  funext i
  simp only [val_main_v22_apply, val_main_call5_v4_apply, val_main_call5_v3_apply, val_main_cst_16_apply,
    val_main_call5_v2_apply, val_main_call5_v1_apply, val_main_call5_v0_apply, val_main_cst_15_apply,
    val_main_v4_apply, val_main_call2_v4_apply, val_main_call2_v3_apply, val_main_cst_5_apply,
    val_main_call2_v2_apply, val_main_call2_v1_apply, val_main_call2_v0_apply, val_main_cst_4_apply,
    val_main_v3_apply, val_main_v0_apply, val_main_call0_v4_apply, val_main_call0_v3_apply, val_main_cst_0_apply,
    val_main_call0_v2_apply, val_main_call0_v1_apply, val_main_call0_v0_apply, val_main_cst_apply,
    val_main_v2_apply, val_main_cst_3_apply]
  show clamp (clamp (clamp (x0 i) * gain)) = clamp (clamp (x0 i) * gain)
  exact clamp_clamp _

/-! ## The chroma planes

The scatter's dimension numbers send update (c, h, w) to entry (start₃, start₄) of block (c, h, w), the start read off the
two index words, both zero. -/

/-- The scatter's dimension numbers. -/
abbrev scat := scatter_S2x256x256x8x8_S2_S2x256x256_012_34_34_0
theorem start_eq_zero (idx : IVec S2 32) (hidx : ∀ k, idx k = 0#32) (j : S2x256x256.Idx) (a : Fin 5) :
    scat.start j idx a = 0 := by
  unfold ScatterDims.start
  split
  · rw [hidx]; rfl
  · rfl

theorem window_0 (j : S2x256x256.Idx) : scat.window j 0 = (j 0).val := rfl
theorem window_1 (j : S2x256x256.Idx) : scat.window j 1 = (j 1).val := rfl
theorem window_2 (j : S2x256x256.Idx) : scat.window j 2 = (j 2).val := rfl
theorem window_3 (j : S2x256x256.Idx) : scat.window j 3 = 0 := rfl
theorem window_4 (j : S2x256x256.Idx) : scat.window j 4 = 0 := rfl

/-- With both index words zero, the update at (c, h, w) lands on entry (0, 0) of block (c, h, w). -/
theorem resultIdx_eq (idx : IVec S2 32) (hidx : ∀ k, idx k = 0#32) (c : Fin 2) (h w : Fin 256) :
    scat.resultIdx? (ix3 c h w) idx = some (ix5 c h w (0 : Fin 8) (0 : Fin 8)) := by
  have hs := start_eq_zero idx hidx (ix3 c h w)
  have hc : c.val < 2 := c.isLt
  have hh : h.val < 256 := h.isLt
  have hw : w.val < 256 := w.isLt
  unfold ScatterDims.resultIdx?
  rw [dif_pos (by
    intro a
    rw [hs a]
    match a with
    | ⟨0, _⟩ => rw [show scat.window (ix3 c h w) (⟨0, by omega⟩ : Fin 5) = c.val from rfl]; show (0 : Int) ≤ 0 + (c.val : Int) ∧ 0 + (c.val : Int) < ((2 : Nat) : Int); omega
    | ⟨1, _⟩ => rw [show scat.window (ix3 c h w) (⟨1, by omega⟩ : Fin 5) = h.val from rfl]; show (0 : Int) ≤ 0 + (h.val : Int) ∧ 0 + (h.val : Int) < ((256 : Nat) : Int); omega
    | ⟨2, _⟩ => rw [show scat.window (ix3 c h w) (⟨2, by omega⟩ : Fin 5) = w.val from rfl]; show (0 : Int) ≤ 0 + (w.val : Int) ∧ 0 + (w.val : Int) < ((256 : Nat) : Int); omega
    | ⟨3, _⟩ => rw [show scat.window (ix3 c h w) (⟨3, by omega⟩ : Fin 5) = 0 from rfl]; show (0 : Int) ≤ 0 + ((0 : Nat) : Int) ∧ 0 + ((0 : Nat) : Int) < ((8 : Nat) : Int); omega
    | ⟨4, _⟩ => rw [show scat.window (ix3 c h w) (⟨4, by omega⟩ : Fin 5) = 0 from rfl]; show (0 : Int) ≤ 0 + ((0 : Nat) : Int) ∧ 0 + ((0 : Nat) : Int) < ((8 : Nat) : Int); omega)]
  refine congrArg some (funext fun a => Fin.ext ?_)
  show (scat.start (ix3 c h w) idx a + (scat.window (ix3 c h w) a : Int)).toNat = (ix5 c h w (0 : Fin 8) (0 : Fin 8) a).val
  rw [hs a]
  match a with
  | ⟨0, _⟩ => show (0 + ((c.val : Nat) : Int)).toNat = c.val; omega
  | ⟨1, _⟩ => show (0 + ((h.val : Nat) : Int)).toNat = h.val; omega
  | ⟨2, _⟩ => show (0 + ((w.val : Nat) : Int)).toNat = w.val; omega
  | ⟨3, _⟩ => show (0 + ((0 : Nat) : Int)).toNat = 0; omega
  | ⟨4, _⟩ => show (0 + ((0 : Nat) : Int)).toNat = 0; omega

/-- The two-piece concatenation of one-element arrays that are zero everywhere is zero everywhere. -/
theorem concat_zero (a b : S1.Idx → BitVec 32) (ha : ∀ i, a i = 0#32) (hb : ∀ i, b i = 0#32)
    (hcat : Shape.Concatenates [S1, S1] S2 0) (k : S2.Idx) :
    concatenate S2 0 [⟨S1, a⟩, ⟨S1, b⟩] hcat k = 0#32 := by
  by_cases hk : (k 0).val < 1
  · rw [concatenate_pair_apply_left (0 : Fin S2.rank) a b hcat k rfl (ix1 (0 : Fin 1))
      (fun b => by match b with | ⟨0, _⟩ => (show (0 : Nat) = (k 0).val); omega)]
    exact ha _
  · have h2 : (k 0).val < 2 := (k 0).isLt
    rw [concatenate_pair_apply_right (0 : Fin S2.rank) a b hcat k rfl rfl (ix1 (0 : Fin 1))
      (fun b hb => by match b with | ⟨0, _⟩ => exact absurd rfl hb)
      (by show (0 : Nat) + 1 = (k 0).val; omega)]
    exact hb _

/-- The indices of a [2, 256, 256] array that drop to channel `c` when axes 1 and 2 are summed out are the (c, h, w);
    so the sum over them is the double sum over h and w. -/
theorem sum_drop12 (hr : S2x256x256.ReducesTo [1, 2] S2) (x : S2x256x256.Idx → EReal) (c : Fin 2) :
    ∑ i ∈ Finset.univ.filter (fun i => hr.drop i = ix1 c), x i = ∑ h : Fin 256, ∑ w : Fin 256, x (ix3 c h w) := by
  rw [← Fintype.sum_prod_type (f := fun p : Fin 256 × Fin 256 => x (ix3 c p.1 p.2))]
  symm
  refine Finset.sum_bij (fun p _ => ix3 c p.1 p.2) ?_ ?_ ?_ ?_
  · intro p _
    rw [Finset.mem_filter]
    refine ⟨Finset.mem_univ _, funext fun b => ?_⟩
    match b with
    | ⟨0, _⟩ => exact Fin.ext rfl
  · intro p _ q _ e
    have e1 := congrFun e (1 : Fin 3)
    have e2 := congrFun e (2 : Fin 3)
    exact Prod.ext e1 e2
  · intro i hi
    rw [Finset.mem_filter] at hi
    have e0 : (i 0).val = c.val := by
      have := congrArg Fin.val (congrFun hi.2 (0 : Fin 1))
      exact this
    refine ⟨(i 1, i 2), Finset.mem_univ _, ?_⟩
    have : i 0 = c := Fin.ext e0
    show ix3 c (i 1) (i 2) = i
    rw [← this]
    exact (eq_ix3 i).symm
  · intro p _; rfl
/-- The scatter read at entry (a, b) of block (c, h, w), both index words zero: at entry (0, 0) the body applied to the
    operand's element and the update at (c, h, w); elsewhere the operand's element. -/
theorem scatter_read {α : Type} (f : α → α → α) (x : S2x256x256x8x8.Idx → α) (idx : IVec S2 32) (hidx : ∀ k, idx k = 0#32)
    (upd : S2x256x256.Idx → α) (c : Fin 2) (h w : Fin 256) (a b : Fin 8) :
    Host.scatter scat f x idx upd (ix5 c h w a b)
      = if a.val = 0 ∧ b.val = 0 then f (x (ix5 c h w a b)) (upd (ix3 c h w)) else x (ix5 c h w a b) := by
  by_cases hab : a.val = 0 ∧ b.val = 0
  · rw [if_pos hab]
    have ha : a = 0 := Fin.ext hab.1
    have hb : b = 0 := Fin.ext hab.2
    subst ha; subst hb
    refine Host.scatter_apply_of_unique scat f x idx upd _ (ix3 c h w) (resultIdx_eq idx hidx c h w) ?_
    intro j hj
    obtain ⟨c', h', w', rfl⟩ : ∃ (c' : Fin 2) (h' w' : Fin 256), j = ix3 c' h' w' := ⟨_, _, _, eq_ix3 j⟩
    rw [resultIdx_eq idx hidx] at hj
    have e := Option.some.inj hj
    have e0 : c' = c := congrFun e (0 : Fin 5)
    have e1 : h' = h := congrFun e (1 : Fin 5)
    have e2 : w' = w := congrFun e (2 : Fin 5)
    rw [e0, e1, e2]
  · rw [if_neg hab]
    refine Host.scatter_apply_of_miss scat f x idx upd _ ?_
    intro j hj
    obtain ⟨c', h', w', rfl⟩ : ∃ (c' : Fin 2) (h' w' : Fin 256), j = ix3 c' h' w' := ⟨_, _, _, eq_ix3 j⟩
    rw [resultIdx_eq idx hidx] at hj
    have e := Option.some.inj hj
    have e3 : (0 : Fin 8) = a := congrFun e (3 : Fin 5)
    have e4 : (0 : Fin 8) = b := congrFun e (4 : Fin 5)
    exact hab ⟨by rw [← e3]; rfl, by rw [← e4]; rfl⟩

/-- The chroma planes clamped twice: clamped once. -/
theorem v5_read (x1 : (⟨S2x256x256x8x8, .f32⟩ : BufTy).Contents (Elt Ideal)) (i : S2x256x256x8x8.Idx) :
    val_main_v5 (F := Ideal) x1 i = clamp (x1 i) := by
  simp only [val_main_v5_apply, val_main_call3_v4_apply, val_main_call3_v3_apply, val_main_cst_7_apply,
    val_main_call3_v2_apply, val_main_call3_v1_apply, val_main_call3_v0_apply, val_main_cst_6_apply,
    val_main_v1_apply, val_main_call1_v4_apply, val_main_call1_v3_apply, val_main_cst_2_apply,
    val_main_call1_v2_apply, val_main_call1_v1_apply, val_main_call1_v0_apply, val_main_cst_1_apply]
  show clamp (clamp (x1 i)) = clamp (x1 i)
  exact clamp_clamp _

/-- The scatter's operand: the clamped coefficient times the gain. -/
theorem v13_read (x1 : (⟨S2x256x256x8x8, .f32⟩ : BufTy).Contents (Elt Ideal)) (i : S2x256x256x8x8.Idx) :
    val_main_v13 (F := Ideal) x1 i = clamp (x1 i) * gain := by
  rw [val_main_v13_apply, v5_read, val_main_v12_apply, val_main_cst_10_apply]
  rfl

/-- The slice and the reshape read entry (0, 0) of block (c, h, w). -/
theorem idx_v6_v7 (c : Fin 2) (h w : Fin 256) :
    idx_main_v6 (idx_main_v7 (ix3 c h w)) = ix5 c h w (0 : Fin 8) (0 : Fin 8) := by
  have hc : c.val < 2 := c.isLt
  have hh : h.val < 256 := h.isLt
  have hw : w.val < 256 := w.isLt
  funext a
  match a with
  | ⟨0, _⟩ => exact Fin.ext (by show ((c.val * 256 + h.val) * 256 + w.val) / 65536 = c.val; omega)
  | ⟨1, _⟩ => exact Fin.ext (by show ((c.val * 256 + h.val) * 256 + w.val) / 256 % 256 = h.val; omega)
  | ⟨2, _⟩ => exact Fin.ext (by show ((c.val * 256 + h.val) * 256 + w.val) / 1 % 256 = w.val; omega)
  | ⟨3, _⟩ => rfl
  | ⟨4, _⟩ => rfl

/-- The clamped DC coefficients as a [2, 256, 256] array. -/
theorem v7_read (x1 : (⟨S2x256x256x8x8, .f32⟩ : BufTy).Contents (Elt Ideal)) (c : Fin 2) (h w : Fin 256) :
    val_main_v7 (F := Ideal) x1 (ix3 c h w) = clamp (x1 (ix5 c h w 0 0)) := by
  rw [val_main_v7_apply, val_main_v6_apply, v5_read, idx_v6_v7]

/-- The sum over a channel's blocks of the clamped DC coefficients, from zero. -/
theorem v8_read (x1 : (⟨S2x256x256x8x8, .f32⟩ : BufTy).Contents (Elt Ideal)) (c : Fin 2) :
    val_main_v8 (F := Ideal) x1 (ix1 c) = 0 + ∑ h : Fin 256, ∑ w : Fin 256, clamp (x1 (ix5 c h w 0 0)) := by
  unfold val_main_v8
  rw [hostReduceAdd_apply, val_main_cst_8_apply]
  unfold Ideal.hostReduceAdd
  rw [sum_drop12]
  simp only [v7_read]
  rw [Ideal.ofBits_def, Ideal.ofBits_zero_f32]

/-- The update: the blend factor times the mean, the same at every block of a channel. -/
theorem v19_read (x1 : (⟨S2x256x256x8x8, .f32⟩ : BufTy).Contents (Elt Ideal)) (c : Fin 2) (h w : Fin 256) :
    val_main_v19 (F := Ideal) x1 (ix3 c h w)
      = blend * Ideal.div (0 + ∑ h' : Fin 256, ∑ w' : Fin 256, clamp (x1 (ix5 c h' w' 0 0))) blocks := by
  rw [val_main_v19_apply, val_main_v15_apply, val_main_v14_apply, val_main_cst_11_apply, val_main_v11_apply,
    val_main_v9_apply, val_main_v10_apply, val_main_cst_9_apply]
  have hi : idx_main_v9 (idx_main_v19 (ix3 c h w)) = ix1 c := by
    funext a
    match a with
    | ⟨0, _⟩ => rfl
  rw [hi, v8_read]
  rfl

/-- Both index words are zero. -/
theorem v18_read (k : S2.Idx) : val_main_v18 (F := Ideal) k = 0#32 := by
  unfold val_main_v18
  exact concat_zero _ _ (fun i => by rw [val_main_v16_apply, val_main_c_apply])
    (fun i => by rw [val_main_v17_apply, val_main_c_12_apply]) _ k

/-- The scatter's result: the operand, plus the update at entry (0, 0) of every block. -/
theorem v20_read (x1 : (⟨S2x256x256x8x8, .f32⟩ : BufTy).Contents (Elt Ideal)) (c : Fin 2) (h w : Fin 256) (a b : Fin 8) :
    val_main_v20 (F := Ideal) x1 (ix5 c h w a b)
      = clamp (x1 (ix5 c h w a b)) * gain
        + (if a.val = 0 ∧ b.val = 0 then
            blend * Ideal.div (0 + ∑ h' : Fin 256, ∑ w' : Fin 256, clamp (x1 (ix5 c h' w' 0 0))) blocks
          else 0) := by
  unfold val_main_v20
  rw [scatter_read _ _ _ v18_read _ c h w a b, v13_read, v19_read]
  by_cases hab : a.val = 0 ∧ b.val = 0
  · rw [if_pos hab, if_pos hab]; rfl
  · rw [if_neg hab, if_neg hab, add_zero]

/-- The reference's chroma result: the scatter adds the blended mean at entry (0, 0) of every block and nothing elsewhere. -/
theorem ref_chroma (x1 : (⟨S2x256x256x8x8, .f32⟩ : BufTy).Contents (Elt Ideal)) :
    val_main_v21 (F := Ideal) x1 = contrast x1 := by
  funext j
  obtain ⟨c, h, w, a, b, rfl⟩ : ∃ (c : Fin 2) (h w : Fin 256) (a b : Fin 8), j = ix5 c h w a b :=
    ⟨_, _, _, _, _, eq_ix5 j⟩
  rw [val_main_v21_apply, val_main_call4_v4_apply, val_main_call4_v3_apply, val_main_cst_14_apply,
    val_main_call4_v2_apply, val_main_call4_v1_apply, val_main_call4_v0_apply, val_main_cst_13_apply, v20_read]
  rfl

end Cert.DctColor.Reference

end
-- ==== Proof.ReferenceStages.lean ====
/-
  The reference's run, in four stretches.

  @main's 72 host operations are cut three times. The first 35 end with the chroma planes clamped twice (the reference clamps
  every plane once on entry and once more before each step). The next 20 compute, from those planes, the three operands
  of the scatter: the planes times the gain; the two index words, both zero; and the value to add, the blend factor
  times the mean over a channel's blocks of the DC coefficients, repeated over the blocks. Then the scatter, alone; and the
  last 16 are the chroma planes' last clamp and the luma planes' last clamp. Each stretch is read back from ANY contents
  of the buffers, so the scatter — a fold over all 131072 update indices — is read by its own result lemma, applied to
  buffer contents that are variables, and the last clamp sees only what the scatter's buffer holds.
-/
import proofs.«418010_j49237505082026_3_alg».proof.Proof.ReferenceRun
import Idealize.ShloMosaic.Lib.StableHlo.Run

noncomputable section

namespace Cert.ReferenceIdeal.Stages

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-- The first 35 operations: the two entry clamps, the luma step and its clamp, and the chroma planes' second clamp. -/
abbrev opsClamp : List (HloOp τ sig (Elt F)) :=
  [ nullary main_cst (constant S_ .f32 0xC4800000#32),
    nullary main_cst_0 (constant S_ .f32 0x447E0000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S1x512x512x8x8, .f32⟩) main_call0_v1) (broadcastInDim S1x512x512x8x8 ![] bcast_S_S1x512x512x8x8),
    TRef.binary (TRef.of (T := ⟨S1x512x512x8x8, .f32⟩) main_call0_v1) (TRef.of (T := ⟨S1x512x512x8x8, .f32⟩) main_arg0) (TRef.of (T := ⟨S1x512x512x8x8, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S1x512x512x8x8, .f32⟩) main_call0_v4) (broadcastInDim S1x512x512x8x8 ![] bcast_S_S1x512x512x8x8),
    TRef.binary (TRef.of (T := ⟨S1x512x512x8x8, .f32⟩) main_call0_v4) (TRef.of (T := ⟨S1x512x512x8x8, .f32⟩) main_call0_v2) (TRef.of (T := ⟨S1x512x512x8x8, .f32⟩) main_v0) minimumf,
    nullary main_cst_1 (constant S_ .f32 0xC4800000#32),
    nullary main_cst_2 (constant S_ .f32 0x447E0000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S2x256x256x8x8, .f32⟩) main_call1_v1) (broadcastInDim S2x256x256x8x8 ![] bcast_S_S2x256x256x8x8),
    TRef.binary (TRef.of (T := ⟨S2x256x256x8x8, .f32⟩) main_call1_v1) (TRef.of (T := ⟨S2x256x256x8x8, .f32⟩) main_arg1) (TRef.of (T := ⟨S2x256x256x8x8, .f32⟩) main_call1_v2) maximumf,
    TRef.unary (TRef.of (T := ⟨S_, .f32⟩) main_cst_2) (TRef.of (T := ⟨S_, .f32⟩) main_call1_v3) id,
    TRef.unary (TRef.of (T := ⟨S_, .f32⟩) main_call1_v3) (TRef.of (T := ⟨S2x256x256x8x8, .f32⟩) main_call1_v4) (broadcastInDim S2x256x256x8x8 ![] bcast_S_S2x256x256x8x8),
    TRef.binary (TRef.of (T := ⟨S2x256x256x8x8, .f32⟩) main_call1_v4) (TRef.of (T := ⟨S2x256x256x8x8, .f32⟩) main_call1_v2) (TRef.of (T := ⟨S2x256x256x8x8, .f32⟩) main_v1) minimumf,
    nullary main_cst_3 (constant S_ .f32 0x3FF33333#32),
    unary main_cst_3 main_v2 (broadcastInDim S1x512x512x8x8 ![] bcast_S_S1x512x512x8x8 : (⟨S_, .f32⟩ : BufTy).Contents (Elt F) → (⟨S1x512x512x8x8, .f32⟩ : BufTy).Contents (Elt F)),
    binary main_v0 main_v2 main_v3 (mulf : (⟨S1x512x512x8x8, .f32⟩ : BufTy).Contents (Elt F) → (⟨S1x512x512x8x8, .f32⟩ : BufTy).Contents (Elt F) → (⟨S1x512x512x8x8, .f32⟩ : BufTy).Contents (Elt F)),
    nullary main_cst_4 (constant S_ .f32 0xC4800000#32),
    nullary main_cst_5 (constant S_ .f32 0x447E0000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S1x512x512x8x8, .f32⟩) main_call2_v1) (broadcastInDim S1x512x512x8x8 ![] bcast_S_S1x512x512x8x8),
    TRef.binary (TRef.of (T := ⟨S1x512x512x8x8, .f32⟩) main_call2_v1) (TRef.of (T := ⟨S1x512x512x8x8, .f32⟩) main_v3) (TRef.of (T := ⟨S1x512x512x8x8, .f32⟩) main_call2_v2) maximumf,
    TRef.unary (TRef.of (T := ⟨S_, .f32⟩) main_cst_5) (TRef.of (T := ⟨S_, .f32⟩) main_call2_v3) id,
    TRef.unary (TRef.of (T := ⟨S_, .f32⟩) main_call2_v3) (TRef.of (T := ⟨S1x512x512x8x8, .f32⟩) main_call2_v4) (broadcastInDim S1x512x512x8x8 ![] bcast_S_S1x512x512x8x8),
    TRef.binary (TRef.of (T := ⟨S1x512x512x8x8, .f32⟩) main_call2_v4) (TRef.of (T := ⟨S1x512x512x8x8, .f32⟩) main_call2_v2) (TRef.of (T := ⟨S1x512x512x8x8, .f32⟩) main_v4) minimumf,
    nullary main_cst_6 (constant S_ .f32 0xC4800000#32),
    nullary main_cst_7 (constant S_ .f32 0x447E0000#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S2x256x256x8x8, .f32⟩) main_call3_v1) (broadcastInDim S2x256x256x8x8 ![] bcast_S_S2x256x256x8x8),
    TRef.binary (TRef.of (T := ⟨S2x256x256x8x8, .f32⟩) main_call3_v1) (TRef.of (T := ⟨S2x256x256x8x8, .f32⟩) main_v1) (TRef.of (T := ⟨S2x256x256x8x8, .f32⟩) main_call3_v2) maximumf,
    TRef.unary (TRef.of (T := ⟨S_, .f32⟩) main_cst_7) (TRef.of (T := ⟨S_, .f32⟩) main_call3_v3) id,
    TRef.unary (TRef.of (T := ⟨S_, .f32⟩) main_call3_v3) (TRef.of (T := ⟨S2x256x256x8x8, .f32⟩) main_call3_v4) (broadcastInDim S2x256x256x8x8 ![] bcast_S_S2x256x256x8x8),
    TRef.binary (TRef.of (T := ⟨S2x256x256x8x8, .f32⟩) main_call3_v4) (TRef.of (T := ⟨S2x256x256x8x8, .f32⟩) main_call3_v2) (TRef.of (T := ⟨S2x256x256x8x8, .f32⟩) main_v5) minimumf ]

/-- The next 20: the scatter's three operands, from the chroma planes clamped twice. -/
abbrev opsMean : List (HloOp τ sig (Elt F)) :=
  [ unary main_v5 main_v6 ((extractStridedSlice S2x256x256x1x1 ![0, 0, 0, 0, 0] · slices_S2x256x256x8x8_S2x256x256x1x1_0_0_0_0_0) : (⟨S2x256x256x8x8, .f32⟩ : BufTy).Contents (Elt F) → (⟨S2x256x256x1x1, .f32⟩ : BufTy).Contents (Elt F)),
    reshape main_v6 main_v7 rfl shapeCasts_S2x256x256x1x1_S2x256x256,
    nullary main_cst_8 (constant S_ .f32 0x00000000#32),
    binary main_v7 main_cst_8 main_v8 ((fun x v => Host.reduceAdd x v reducesTo_S2x256x256_S2_d1_2 h_S_) : (⟨S2x256x256, .f32⟩ : BufTy).Contents (Elt F) → (⟨S_, .f32⟩ : BufTy).Contents (Elt F) → (⟨S2, .f32⟩ : BufTy).Contents (Elt F)),
    unary main_v8 main_v9 (broadcastInDim S2x1x1 ![0] bcast_S2_S2x1x1_0 : (⟨S2, .f32⟩ : BufTy).Contents (Elt F) → (⟨S2x1x1, .f32⟩ : BufTy).Contents (Elt F)),
    nullary main_cst_9 (constant S_ .f32 0x47800000#32),
    unary main_cst_9 main_v10 (broadcastInDim S2x1x1 ![] bcast_S_S2x1x1 : (⟨S_, .f32⟩ : BufTy).Contents (Elt F) → (⟨S2x1x1, .f32⟩ : BufTy).Contents (Elt F)),
    binary main_v9 main_v10 main_v11 (Host.divf : (⟨S2x1x1, .f32⟩ : BufTy).Contents (Elt F) → (⟨S2x1x1, .f32⟩ : BufTy).Contents (Elt F) → (⟨S2x1x1, .f32⟩ : BufTy).Contents (Elt F)),
    nullary main_cst_10 (constant S_ .f32 0x3FF33333#32),
    unary main_cst_10 main_v12 (broadcastInDim S2x256x256x8x8 ![] bcast_S_S2x256x256x8x8 : (⟨S_, .f32⟩ : BufTy).Contents (Elt F) → (⟨S2x256x256x8x8, .f32⟩ : BufTy).Contents (Elt F)),
    binary main_v5 main_v12 main_v13 (mulf : (⟨S2x256x256x8x8, .f32⟩ : BufTy).Contents (Elt F) → (⟨S2x256x256x8x8, .f32⟩ : BufTy).Contents (Elt F) → (⟨S2x256x256x8x8, .f32⟩ : BufTy).Contents (Elt F)),
    nullary main_cst_11 (constant S_ .f32 0xBF666666#32),
    unary main_cst_11 main_v14 (broadcastInDim S2x1x1 ![] bcast_S_S2x1x1 : (⟨S_, .f32⟩ : BufTy).Contents (Elt F) → (⟨S2x1x1, .f32⟩ : BufTy).Contents (Elt F)),
    binary main_v14 main_v11 main_v15 (mulf : (⟨S2x1x1, .f32⟩ : BufTy).Contents (Elt F) → (⟨S2x1x1, .f32⟩ : BufTy).Contents (Elt F) → (⟨S2x1x1, .f32⟩ : BufTy).Contents (Elt F)),
    nullary main_c (constantI S_ 32 0#32),
    unary main_c main_v16 (broadcastInDim S1 ![] bcast_S_S1 : (⟨S_, .i32⟩ : BufTy).Contents (Elt F) → (⟨S1, .i32⟩ : BufTy).Contents (Elt F)),
    nullary main_c_12 (constantI S_ 32 0#32),
    unary main_c_12 main_v17 (broadcastInDim S1 ![] bcast_S_S1 : (⟨S_, .i32⟩ : BufTy).Contents (Elt F) → (⟨S1, .i32⟩ : BufTy).Contents (Elt F)),
    binary main_v16 main_v17 main_v18 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    unary main_v15 main_v19 (broadcastInDim S2x256x256 ![0, 1, 2] bcast_S2x1x1_S2x256x256_0_1_2 : (⟨S2x1x1, .f32⟩ : BufTy).Contents (Elt F) → (⟨S2x256x256, .f32⟩ : BufTy).Contents (Elt F)) ]

/-- The scatter, alone. -/
abbrev opsScatter : List (HloOp τ sig (Elt F)) :=
  [ ternary main_v13 main_v18 main_v19 main_v20 ((fun x i u => Host.scatter scatter_S2x256x256x8x8_S2_S2x256x256_012_34_34_0 FloatOps.addf x i u) : (⟨S2x256x256x8x8, .f32⟩ : BufTy).Contents (Elt F) → (⟨S2, .i32⟩ : BufTy).Contents (Elt F) → (⟨S2x256x256, .f32⟩ : BufTy).Contents (Elt F) → (⟨S2x256x256x8x8, .f32⟩ : BufTy).Contents (Elt F)) ]

/-- The last 16: the chroma planes' last clamp and the luma planes' last clamp. -/
abbrev opsLast : List (HloOp τ sig (Elt F)) :=
  [ nullary main_cst_13 (constant S_ .f32 0xC4800000#32),
    nullary main_cst_14 (constant S_ .f32 0x447E0000#32),
    TRef.unary (TRef.of (T := ⟨S_, .f32⟩) main_cst_13) (TRef.of (T := ⟨S_, .f32⟩) main_call4_v0) id,
    TRef.unary (TRef.of (T := ⟨S_, .f32⟩) main_call4_v0) (TRef.of (T := ⟨S2x256x256x8x8, .f32⟩) main_call4_v1) (broadcastInDim S2x256x256x8x8 ![] bcast_S_S2x256x256x8x8),
    TRef.binary (TRef.of (T := ⟨S2x256x256x8x8, .f32⟩) main_call4_v1) (TRef.of (T := ⟨S2x256x256x8x8, .f32⟩) main_v20) (TRef.of (T := ⟨S2x256x256x8x8, .f32⟩) main_call4_v2) maximumf,
    TRef.unary (TRef.of (T := ⟨S_, .f32⟩) main_cst_14) (TRef.of (T := ⟨S_, .f32⟩) main_call4_v3) id,
    TRef.unary (TRef.of (T := ⟨S_, .f32⟩) main_call4_v3) (TRef.of (T := ⟨S2x256x256x8x8, .f32⟩) main_call4_v4) (broadcastInDim S2x256x256x8x8 ![] bcast_S_S2x256x256x8x8),
    TRef.binary (TRef.of (T := ⟨S2x256x256x8x8, .f32⟩) main_call4_v4) (TRef.of (T := ⟨S2x256x256x8x8, .f32⟩) main_call4_v2) (TRef.of (T := ⟨S2x256x256x8x8, .f32⟩) main_v21) minimumf,
    nullary main_cst_15 (constant S_ .f32 0xC4800000#32),
    nullary main_cst_16 (constant S_ .f32 0x447E0000#32),
    TRef.unary (TRef.of (T := ⟨S_, .f32⟩) main_cst_15) (TRef.of (T := ⟨S_, .f32⟩) main_call5_v0) id,
    TRef.unary (TRef.of (T := ⟨S_, .f32⟩) main_call5_v0) (TRef.of (T := ⟨S1x512x512x8x8, .f32⟩) main_call5_v1) (broadcastInDim S1x512x512x8x8 ![] bcast_S_S1x512x512x8x8),
    TRef.binary (TRef.of (T := ⟨S1x512x512x8x8, .f32⟩) main_call5_v1) (TRef.of (T := ⟨S1x512x512x8x8, .f32⟩) main_v4) (TRef.of (T := ⟨S1x512x512x8x8, .f32⟩) main_call5_v2) maximumf,
    TRef.unary (TRef.of (T := ⟨S_, .f32⟩) main_cst_16) (TRef.of (T := ⟨S_, .f32⟩) main_call5_v3) id,
    TRef.unary (TRef.of (T := ⟨S_, .f32⟩) main_call5_v3) (TRef.of (T := ⟨S1x512x512x8x8, .f32⟩) main_call5_v4) (broadcastInDim S1x512x512x8x8 ![] bcast_S_S1x512x512x8x8),
    TRef.binary (TRef.of (T := ⟨S1x512x512x8x8, .f32⟩) main_call5_v4) (TRef.of (T := ⟨S1x512x512x8x8, .f32⟩) main_call5_v2) (TRef.of (T := ⟨S1x512x512x8x8, .f32⟩) main_v22) minimumf ]

/-- The list is the four stretches, one after the other. -/
theorem ops_eq : (ops : List (HloOp τ sig (Elt F))) = opsClamp ++ (opsMean ++ (opsScatter ++ opsLast)) := rfl

/-- Running two stretches in a row is running the second from what the first leaves. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- A plane clamped twice. -/
def clampedTwice (x : (⟨S2x256x256x8x8, .f32⟩ : BufTy).Contents (Elt F)) : (⟨S2x256x256x8x8, .f32⟩ : BufTy).Contents (Elt F) :=
  (minimumf (broadcastInDim S2x256x256x8x8 ![] bcast_S_S2x256x256x8x8 (id (constant S_ .f32 0x447E0000#32))) (maximumf (broadcastInDim S2x256x256x8x8 ![] bcast_S_S2x256x256x8x8 (id (constant S_ .f32 0xC4800000#32))) (minimumf (broadcastInDim S2x256x256x8x8 ![] bcast_S_S2x256x256x8x8 (id (constant S_ .f32 0x447E0000#32))) (maximumf (broadcastInDim S2x256x256x8x8 ![] bcast_S_S2x256x256x8x8 (id (constant S_ .f32 0xC4800000#32))) x))))

/-- The scatter's operand: the planes times the gain. -/
def operandOf (y : (⟨S2x256x256x8x8, .f32⟩ : BufTy).Contents (Elt F)) : (⟨S2x256x256x8x8, .f32⟩ : BufTy).Contents (Elt F) :=
  (mulf y (broadcastInDim S2x256x256x8x8 ![] bcast_S_S2x256x256x8x8 (constant S_ .f32 0x3FF33333#32)))

/-- The scatter's index words: two, both zero. -/
def indexWords : (⟨S2, .i32⟩ : BufTy).Contents (Elt F) :=
  (concatenate S2 0 [⟨S1, (broadcastInDim S1 ![] bcast_S_S1 (constantI S_ 32 0#32))⟩, ⟨S1, (broadcastInDim S1 ![] bcast_S_S1 (constantI S_ 32 0#32))⟩] concatenates_S1_S1_S2_d0)

/-- The scatter's update: the blend factor times the mean over a channel's blocks of the DC coefficients, at every block. -/
def updateOf (y : (⟨S2x256x256x8x8, .f32⟩ : BufTy).Contents (Elt F)) : (⟨S2x256x256, .f32⟩ : BufTy).Contents (Elt F) :=
  (broadcastInDim S2x256x256 ![0, 1, 2] bcast_S2x1x1_S2x256x256_0_1_2 (mulf (broadcastInDim S2x1x1 ![] bcast_S_S2x1x1 (constant S_ .f32 0xBF666666#32)) (Host.divf (broadcastInDim S2x1x1 ![0] bcast_S2_S2x1x1_0 (Host.reduceAdd (shapeCast _ (extractStridedSlice S2x256x256x1x1 ![0, 0, 0, 0, 0] y slices_S2x256x256x8x8_S2x256x256x1x1_0_0_0_0_0) shapeCasts_S2x256x256x1x1_S2x256x256) (constant S_ .f32 0x00000000#32) reducesTo_S2x256x256_S2_d1_2 h_S_)) (broadcastInDim S2x1x1 ![] bcast_S_S2x1x1 (constant S_ .f32 0x47800000#32)))))

/-- The last clamp. -/
def lastClamp (z : (⟨S2x256x256x8x8, .f32⟩ : BufTy).Contents (Elt F)) : (⟨S2x256x256x8x8, .f32⟩ : BufTy).Contents (Elt F) :=
  minimumf (broadcastInDim S2x256x256x8x8 ![] bcast_S_S2x256x256x8x8 (id (constant S_ .f32 0x447E0000#32))) (maximumf (broadcastInDim S2x256x256x8x8 ![] bcast_S_S2x256x256x8x8 (id (constant S_ .f32 0xC4800000#32))) z)

/-- The chroma result from the planes clamped twice. -/
def chromaFrom (y : (⟨S2x256x256x8x8, .f32⟩ : BufTy).Contents (Elt F)) : (⟨S2x256x256x8x8, .f32⟩ : BufTy).Contents (Elt F) :=
  lastClamp (Host.scatter scatter_S2x256x256x8x8_S2_S2x256x256_012_34_34_0 FloatOps.addf (operandOf y) (indexWords (F := F)) (updateOf y))

set_option maxRecDepth 8192 in
set_option maxHeartbeats 4000000 in
/-- The first stretch leaves the chroma planes clamped twice in `main_v5`, from any contents. -/
theorem clamped_result (V : Valuation τ sig (Elt F)) :
    after opsClamp V (Proc.devRef .tc main_v5) = clampedTwice (F := F) (V (Proc.devRef .tc main_arg1)) := by
  after_results_simp <;> rfl

set_option maxRecDepth 8192 in
set_option maxHeartbeats 4000000 in
/-- The second stretch leaves the scatter's operand in `main_v13`, … -/
theorem operand_result (W : Valuation τ sig (Elt F)) :
    after opsMean W (Proc.devRef .tc main_v13) = operandOf (F := F) (W (Proc.devRef .tc main_v5)) := by
  after_results <;> rfl

set_option maxRecDepth 8192 in
set_option maxHeartbeats 4000000 in
/-- … its index words in `main_v18`, … -/
theorem index_result (W : Valuation τ sig (Elt F)) :
    after opsMean W (Proc.devRef .tc main_v18) = indexWords (F := F) := by
  after_results <;> rfl

set_option maxRecDepth 8192 in
set_option maxHeartbeats 4000000 in
/-- … and its update in `main_v19`, from any contents. -/
theorem update_result (W : Valuation τ sig (Elt F)) :
    after opsMean W (Proc.devRef .tc main_v19) = updateOf (F := F) (W (Proc.devRef .tc main_v5)) := by
  after_results <;> rfl

/-- The scatter leaves in `main_v20` the scatter of what it finds in its three operands' buffers. -/
theorem scatter_result (W : Valuation τ sig (Elt F)) :
    after opsScatter W (Proc.devRef .tc main_v20)
      = Host.scatter scatter_S2x256x256x8x8_S2_S2x256x256_012_34_34_0 FloatOps.addf
          (W (Proc.devRef .tc main_v13)) (W (Proc.devRef .tc main_v18)) (W (Proc.devRef .tc main_v19)) := by
  rw [after_cons, after_nil, ternary_result]

set_option maxRecDepth 8192 in
set_option maxHeartbeats 4000000 in
/-- The last stretch leaves in `main_v21` the last clamp of what it finds in `main_v20`, from any contents. -/
theorem last_result (W : Valuation τ sig (Elt F)) :
    after opsLast W (Proc.devRef .tc main_v21) = lastClamp (F := F) (W (Proc.devRef .tc main_v20)) := by
  after_results_simp <;> rfl

/-- The four stretches in a row: the chroma result from any contents is `chromaFrom` of the chroma argument clamped twice. -/
theorem chroma_result (V : Valuation τ sig (Elt F)) :
    after ops V (Proc.devRef .tc main_v21) = chromaFrom (F := F) (clampedTwice (F := F) (V (Proc.devRef .tc main_arg1))) := by
  rw [ops_eq, after_app, after_app, after_app, last_result, scatter_result, operand_result, index_result, update_result, clamped_result]
  rfl

set_option maxRecDepth 8192 in
set_option maxHeartbeats 28800000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = minimumf (broadcastInDim S1x512x512x8x8 ![] bcast_S_S1x512x512x8x8 (id (constant S_ .f32 0x447E0000#32))) (maximumf (broadcastInDim S1x512x512x8x8 ![] bcast_S_S1x512x512x8x8 (id (constant S_ .f32 0xC4800000#32))) (minimumf (broadcastInDim S1x512x512x8x8 ![] bcast_S_S1x512x512x8x8 (id (constant S_ .f32 0x447E0000#32))) (maximumf (broadcastInDim S1x512x512x8x8 ![] bcast_S_S1x512x512x8x8 (id (constant S_ .f32 0xC4800000#32))) (mulf (minimumf (broadcastInDim S1x512x512x8x8 ![] bcast_S_S1x512x512x8x8 (id (constant S_ .f32 0x447E0000#32))) (maximumf (broadcastInDim S1x512x512x8x8 ![] bcast_S_S1x512x512x8x8 (id (constant S_ .f32 0xC4800000#32))) (m ((c.tc : Thread nD τ).loc main_arg0)))) (broadcastInDim S1x512x512x8x8 ![] bcast_S_S1x512x512x8x8 (constant S_ .f32 0x3FF33333#32))))))
      ∧ r.2.mem ((c.tc : Thread nD τ).loc main_v21) = minimumf (broadcastInDim S2x256x256x8x8 ![] bcast_S_S2x256x256x8x8 (id (constant S_ .f32 0x447E0000#32))) (maximumf (broadcastInDim S2x256x256x8x8 ![] bcast_S_S2x256x256x8x8 (id (constant S_ .f32 0xC4800000#32))) (Host.scatter scatter_S2x256x256x8x8_S2_S2x256x256_012_34_34_0 FloatOps.addf (mulf (minimumf (broadcastInDim S2x256x256x8x8 ![] bcast_S_S2x256x256x8x8 (id (constant S_ .f32 0x447E0000#32))) (maximumf (broadcastInDim S2x256x256x8x8 ![] bcast_S_S2x256x256x8x8 (id (constant S_ .f32 0xC4800000#32))) (minimumf (broadcastInDim S2x256x256x8x8 ![] bcast_S_S2x256x256x8x8 (id (constant S_ .f32 0x447E0000#32))) (maximumf (broadcastInDim S2x256x256x8x8 ![] bcast_S_S2x256x256x8x8 (id (constant S_ .f32 0xC4800000#32))) (m ((c.tc : Thread nD τ).loc main_arg1)))))) (broadcastInDim S2x256x256x8x8 ![] bcast_S_S2x256x256x8x8 (constant S_ .f32 0x3FF33333#32))) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (broadcastInDim S2x256x256 ![0, 1, 2] bcast_S2x1x1_S2x256x256_0_1_2 (mulf (broadcastInDim S2x1x1 ![] bcast_S_S2x1x1 (constant S_ .f32 0xBF666666#32)) (Host.divf (broadcastInDim S2x1x1 ![0] bcast_S2_S2x1x1_0 (Host.reduceAdd (shapeCast _ (extractStridedSlice S2x256x256x1x1 ![0, 0, 0, 0, 0] (minimumf (broadcastInDim S2x256x256x8x8 ![] bcast_S_S2x256x256x8x8 (id (constant S_ .f32 0x447E0000#32))) (maximumf (broadcastInDim S2x256x256x8x8 ![] bcast_S_S2x256x256x8x8 (id (constant S_ .f32 0xC4800000#32))) (minimumf (broadcastInDim S2x256x256x8x8 ![] bcast_S_S2x256x256x8x8 (id (constant S_ .f32 0x447E0000#32))) (maximumf (broadcastInDim S2x256x256x8x8 ![] bcast_S_S2x256x256x8x8 (id (constant S_ .f32 0xC4800000#32))) (m ((c.tc : Thread nD τ).loc main_arg1)))))) slices_S2x256x256x8x8_S2x256x256x1x1_0_0_0_0_0) shapeCasts_S2x256x256x1x1_S2x256x256) (constant S_ .f32 0x00000000#32) reducesTo_S2x256x256_S2_d1_2 h_S_)) (broadcastInDim S2x1x1 ![] bcast_S_S2x1x1 (constant S_ .f32 0x47800000#32)))))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v22).trans (by after_results_simp <;> rfl),
      (h c main_v21).trans ((chroma_result _).trans rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.Stages

end
-- ==== Proof.lean ====
/-
  The kernel and its jnp reference compute, on the extended reals, the same two arrays.

  Luma: every coefficient is clamped to [-1024, 1016], multiplied by the gain 1.9 and clamped again. The kernel does it on
  the planes laid out as [8192, 2048], sixteen blocks of 512 rows; the reference clamps once more before and after, which
  changes nothing, since clamping twice is clamping once.

  Chroma: every clamped coefficient is multiplied by the same gain, the DC coefficient of every 8×8 block receives in
  addition (1 - 1.9) times the mean over the channel's 65536 blocks of the clamped DC coefficients, and the sum is
  clamped. The kernel lays the planes out as rows of 128 lanes, two blocks to a row, so that the DC coefficients are the
  lanes 0 and 64; a first pass sums them in two halves, four blocks of 4096 rows to a half, @main adds the halves and the
  two lanes, divides by 65536 and multiplies by the blend factor, and a second pass adds that value on the DC lanes and 0
  elsewhere. The reference sums the DC coefficients over the blocks directly and adds the value with a scatter at entry
  (0, 0) of every block. The two sums run over the same 65536 terms in another grouping, and adding 0 changes nothing:
  only the commutativity and associativity of addition on the extended reals are used, so the inputs' finiteness plays
  no part in the equality.

  The frames of the two kernel programs are the generated ones; the reference's is its run with the results dropped; the
  ideal pass rewrote nothing, so there is nothing to preserve.
-/
import proofs.«418010_j49237505082026_3_alg».proof.Defs
import proofs.«418010_j49237505082026_3_alg».proof.Proof.Gen.Kernel
import proofs.«418010_j49237505082026_3_alg».proof.Proof.Gen.Kernel.Frame
import proofs.«418010_j49237505082026_3_alg».proof.Proof.Gen.KernelIdeal
import proofs.«418010_j49237505082026_3_alg».proof.Proof.Gen.KernelIdeal.Frame
import proofs.«418010_j49237505082026_3_alg».proof.Proof.Gen.ReferenceIdeal
import proofs.«418010_j49237505082026_3_alg».proof.Proof.Gen.Pre_finite_inputs
import proofs.«418010_j49237505082026_3_alg».proof.Proof.KernelValue
import proofs.«418010_j49237505082026_3_alg».proof.Proof.ReferenceValue
import proofs.«418010_j49237505082026_3_alg».proof.Proof.ReferenceStages
import Idealize.ShloMosaic.Adequacy
import Idealize.ShloMosaic.Init

noncomputable section

namespace Cert.Proof

open Idealize.ShloMosaic Idealize.ShloMosaic.TcCoe Idealize.SL.Sem Cert.DctColor

/-- Every weakly fair execution of the reference's @main terminates with its two results at brightness and contrast of
    its arguments, and the arguments as launched. -/
theorem reference_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v22)
            = bright (s := Cert.ReferenceIdeal.S1x512x512x8x8) (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_v21)
            = contrast (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run (Cert.ReferenceIdeal.defs (F := Ideal)) _ _).mono
    (fun r h c =>
      ⟨(h c).1.trans ((Cert.ReferenceIdeal.ReadP.val_main_v22_eq _).trans (Cert.DctColor.Reference.ref_luma _)),
       (h c).2.1.trans ((Cert.ReferenceIdeal.ReadP.val_main_v21_eq _).trans (Cert.DctColor.Reference.ref_chroma _)),
       (h c).2.2.1, (h c).2.2.2⟩)
    (Cert.ReferenceIdeal.Stages.run (F := Ideal) m' ρ')

theorem claim : Cert.Claim :=
  ⟨Cert.Kernel.Gen.facts, Cert.KernelIdeal.Gen.facts, Cert.ReferenceIdeal.Gen.facts, Cert.Pre_finite_inputs.Gen.facts,
    -- the two kernel programs run, nothing faulting, and leave their arguments alone
    fun m ρ _ => Cert.Kernel.Gen.frame m ρ,
    fun m ρ _ => Cert.KernelIdeal.Gen.frame m ρ,
    -- so does the reference: its run, the results dropped
    fun m ρ _ => (θ_run (Cert.ReferenceIdeal.defs (F := Ideal)) _ _).mono (fun _ h c => (h c).2.2)
      (Cert.ReferenceIdeal.Stages.run (F := Ideal) m ρ),
    -- the ideal pass rewrote nothing
    trivial,
    -- both runs end with brightness of the luma argument and contrast of the chroma argument
    fun m ρ m' ρ' _ hagree =>
      ⟨fun c => bright (s := Cert.KernelIdeal.S1x512x512x8x8) (m ((c.tc : Thread Cert.KernelIdeal.nD Cert.KernelIdeal.τ).loc Cert.KernelIdeal.main_arg0)),
       fun c => contrast (m ((c.tc : Thread Cert.KernelIdeal.nD Cert.KernelIdeal.τ).loc Cert.KernelIdeal.main_arg1)),
       Cert.DctColor.Kernel.run_value m ρ,
       (θ_run (Cert.ReferenceIdeal.defs (F := Ideal)) _ _).mono
        (fun r h c =>
          ⟨(h c).1.trans (congrArg (bright (s := Cert.ReferenceIdeal.S1x512x512x8x8)) (hagree c).1),
           (h c).2.1.trans (congrArg contrast (hagree c).2),
           (h c).2.2.1, (h c).2.2.2⟩)
        (reference_run m' ρ')⟩⟩

end Cert.Proof

end
